-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel

variable [Facts]

def fn {F : FTy → Type} [FloatOps F] (main_arg0 : FVec F S8x512x128x128 .f32) (main_arg1 : FVec F S8x512x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x512x128x128 .f32 := Host.absf main_arg1
  let main_cst_0 : FVec F S_ .f32 := constant S_ .f32 0x7F800000#32
  let main_v5 : FVec F S8x512x128x128 .f32 := broadcastInDim S8x512x128x128 ![] bcast_S_S8x512x128x128 main_cst_0
  let main_v6 : IVec S8x512x128x128 1 := cmpf .olt main_v4 main_v5
  let main_c_1 : IVec S_ 1 := constantI S_ 1 1#1
  let main_v7 : IVec S_ 1 := (fun x v => Host.reduce IntOp.andi x v reducesTo_S8x512x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x512x16384 : Shape := ⟨3, ![8, 512, 16384]⟩
abbrev S8x512x512 : Shape := ⟨3, ![8, 512, 512]⟩
abbrev S1x512x4096 : Shape := ⟨3, ![1, 512, 4096]⟩
abbrev S1x512x512 : Shape := ⟨3, ![1, 512, 512]⟩
abbrev S512x512 : Shape := ⟨2, ![512, 512]⟩
abbrev S512x4096 : Shape := ⟨2, ![512, 4096]⟩
abbrev S4096x512 : Shape := ⟨2, ![4096, 512]⟩
abbrev S512 : Shape := ⟨1, ![512]⟩
abbrev S_ : Shape := ⟨0, ![]⟩
abbrev S512x1 : Shape := ⟨2, ![512, 1]⟩
abbrev S512x2 : Shape := ⟨2, ![512, 2]⟩
abbrev S8x512 : Shape := ⟨2, ![8, 512]⟩
abbrev S8x512x1 : Shape := ⟨3, ![8, 512, 1]⟩
abbrev S8x1x512 : Shape := ⟨3, ![8, 1, 512]⟩

abbrev nBuf : Space → Nat
  | .hbm => 68
  | .vmem => 10
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S8x512x16384, .f32⟩
  | .hbm, ⟨3, _⟩ => ⟨S8x512x512, .f32⟩
  | .hbm, ⟨4, _⟩ => ⟨S8x512x16384, .f32⟩
  | .hbm, ⟨5, _⟩ => ⟨S8x512x512, .f32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S512x1, .i32⟩
  | .hbm, ⟨23, _⟩ => ⟨S512x1, .i32⟩
  | .hbm, ⟨24, _⟩ => ⟨S512x2, .i32⟩
  | .hbm, ⟨25, _⟩ => ⟨S8x512, .f32⟩
  | .hbm, ⟨26, _⟩ => ⟨S8x512, .f32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S_, .i32⟩
  | .hbm, ⟨37, _⟩ => ⟨S512, .i32⟩
  | .hbm, ⟨38, _⟩ => ⟨S512, .i1⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S512x1, .i32⟩
  | .hbm, ⟨45, _⟩ => ⟨S512x2, .i32⟩
  | .hbm, ⟨46, _⟩ => ⟨S8x512, .f32⟩
  | .hbm, ⟨47, _⟩ => ⟨S8x512, .f32⟩
  | .hbm, ⟨48, _⟩ => ⟨S8x512x1, .f32⟩
  | .hbm, ⟨49, _⟩ => ⟨S8x1x512, .f32⟩
  | .hbm, ⟨50, _⟩ => ⟨S8x512x512, .f32⟩
  | .hbm, ⟨51, _⟩ => ⟨S8x512x512, .f32⟩
  | .hbm, ⟨52, _⟩ => ⟨S8x512x512, .f32⟩
  | .hbm, ⟨53, _⟩ => ⟨S8x512x1, .f32⟩
  | .hbm, ⟨54, _⟩ => ⟨S8x1x512, .f32⟩
  | .hbm, ⟨55, _⟩ => ⟨S8x512x512, .f32⟩
  | .hbm, ⟨56, _⟩ => ⟨S8x512x512, .f32⟩
  | .hbm, ⟨57, _⟩ => ⟨S8x512x512, .f32⟩
  | .hbm, ⟨58, _⟩ => ⟨S8x512x512, .f32⟩
  | .hbm, ⟨59, _⟩ => ⟨S8x512x512, .f32⟩
  | .hbm, ⟨60, _⟩ => ⟨S8x512x512, .f32⟩
  | .hbm, ⟨61, _⟩ => ⟨S8x512x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S1x512x4096, .f32⟩
  | .local _ .vmem, ⟨1, _⟩ => ⟨S1x512x4096, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512x4096, .f32⟩
  | .local _ .vmem, ⟨6, _⟩ => ⟨S1x512x4096, .f32⟩
  | .local _ .vmem, ⟨7, _⟩ => ⟨S1x512x512, .f32⟩
  | .local _ .vmem, ⟨8, _⟩ => ⟨S1x512x512, .f32⟩
  | .local _ .vmem, ⟨9, _⟩ => ⟨S512x512, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_c_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_v7 : Ref sig .tc := ⟨.hbm, 16, rfl⟩
abbrev main_call0_v8 : Ref sig .tc := ⟨.hbm, 17, rfl⟩
abbrev main_call0_c_2 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v4 : Ref sig .tc := ⟨.hbm, 25, rfl⟩
abbrev main_v5 : Ref sig .tc := ⟨.hbm, 26, rfl⟩
abbrev main_call1_v0 : Ref sig .tc := ⟨.hbm, 27, rfl⟩
abbrev main_call1_v1 : Ref sig .tc := ⟨.hbm, 28, rfl⟩
abbrev main_call1_c : Ref sig .tc := ⟨.hbm, 29, rfl⟩
abbrev main_call1_v2 : Ref sig .tc := ⟨.hbm, 30, rfl⟩
abbrev main_call1_v3 : Ref sig .tc := ⟨.hbm, 31, rfl⟩
abbrev main_call1_c_0 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_c_1 : Ref sig .tc := ⟨.hbm, 36, rfl⟩
abbrev main_call1_v7 : Ref sig .tc := ⟨.hbm, 37, rfl⟩
abbrev main_call1_v8 : Ref sig .tc := ⟨.hbm, 38, rfl⟩
abbrev main_call1_c_2 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst : Ref sig .tc := ⟨.hbm, 62, rfl⟩
abbrev main_v22 : Ref sig .tc := ⟨.hbm, 63, rfl⟩
abbrev main_cst_0 : Ref sig .tc := ⟨.hbm, 64, rfl⟩
abbrev main_v23 : Ref sig .tc := ⟨.hbm, 65, rfl⟩
abbrev main_cst_1 : Ref sig .tc := ⟨.hbm, 66, rfl⟩
abbrev main_v24 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_7 : BitVec 32 := 0#32
  let v15 : BitVec 1 := Scalar.cmpi .ne v14 c0_i32_7
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

class Facts₀ : Prop where
  shapeCasts_S8x512x128x128_S8x512x16384 : S8x512x128x128.ShapeCasts S8x512x16384
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  transposes_S512x4096_p1_0_S4096x512 : S512x4096.Transposes [1, 0] S4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  reducesTo_S8x512x512_S_d0_1_2 : S8x512x512.ReducesTo [0, 1, 2] S_
  h_S_ : 0 < S_.numel
  dot_S512x4096_S4096x512_S512x512_1_0_0_1_n_n_wf : DotDims.WF S512x4096 S4096x512 S512x512 [1] [0] [0] [1] [] []
  gather_S8x512x512_S512x2_S8x512_0_12_n_n_12_1_811_wf : GatherDims.WF S8x512x512 S512x2 S8x512 [0] [1, 2] [] [1, 2] [] 1 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x16384.size a
  hwx0_0 : ∀ i : grid0.Coords, EltTy.bits .f32 = 32 ∨ (Rect.block (s := S8x512x16384) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x512x16384.size a
  hwx1_0 : ∀ i : grid1.Coords, EltTy.bits .f32 = 32 ∨ (Rect.block (s := S8x512x16384) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x512x512.size a
  hwx1_1 : ∀ i : grid1.Coords, EltTy.bits .f32 = 32 ∨ (Rect.block (s := S8x512x512) S1x512x512.size (cc1_transform_1 i) (hinb1_1 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def gather_S8x512x512_S512x2_S8x512_0_12_n_n_12_1_811 : GatherDims S8x512x512 S512x2 S8x512 where
  offsetDims := [0]
  collapsedSliceDims := [1, 2]
  operandBatchingDims := []
  startIndicesBatchingDims := []
  startIndexMap := [1, 2]
  indexVectorDim := 1
  sliceSizes := ![8, 1, 1]
  wf := gather_S8x512x512_S512x2_S8x512_0_12_n_n_12_1_811_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S8x512x16384 : Shape := ⟨3, ![8, 512, 16384]⟩
abbrev S8x512x512 : Shape := ⟨3, ![8, 512, 512]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S8x512x16384, .f32⟩
  | .hbm, ⟨3, _⟩ => ⟨S8x512x512, .f32⟩
  | .hbm, ⟨4, _⟩ => ⟨S8x512x16384, .f32⟩
  | .hbm, ⟨5, _⟩ => ⟨S_, .f32⟩
  | .hbm, ⟨6, _⟩ => ⟨S8x512, .f32⟩
  | .hbm, ⟨7, _⟩ => ⟨S8x512, .f32⟩
  | .hbm, ⟨8, _⟩ => ⟨S8x512x1, .f32⟩
  | .hbm, ⟨9, _⟩ => ⟨S8x1x512, .f32⟩
  | .hbm, ⟨10, _⟩ => ⟨S8x512x512, .f32⟩
  | .hbm, ⟨11, _⟩ => ⟨S8x512x512, .f32⟩
  | .hbm, ⟨12, _⟩ => ⟨S8x512x512, .f32⟩
  | .hbm, ⟨13, _⟩ => ⟨S8x512x512, .f32⟩
  | .hbm, ⟨14, _⟩ => ⟨S8x512x16384, .f32⟩
  | .hbm, ⟨15, _⟩ => ⟨S8x512x512, .f32⟩
  | .hbm, ⟨16, _⟩ => ⟨S8x512x16384, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512x1, .f32⟩
  | .hbm, ⟨21, _⟩ => ⟨S8x1x512, .f32⟩
  | .hbm, ⟨22, _⟩ => ⟨S8x512x512, .f32⟩
  | .hbm, ⟨23, _⟩ => ⟨S8x512x512, .f32⟩
  | .hbm, ⟨24, _⟩ => ⟨S8x512x512, .f32⟩
  | .hbm, ⟨25, _⟩ => ⟨S8x512x512, .f32⟩
  | .hbm, ⟨26, _⟩ => ⟨S8x512x512, .f32⟩
  | .hbm, ⟨27, _⟩ => ⟨S8x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S8x512x128x128_S8x512x16384 : S8x512x128x128.ShapeCasts S8x512x16384
  reducesTo_S8x512x16384_S8x512_d2 : S8x512x16384.ReducesTo [2] S8x512
  h_S_ : 0 < S_.numel
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  reducesTo_S8x512x512_S_d0_1_2 : S8x512x512.ReducesTo [0, 1, 2] S_
  dot_S8x512x16384_S8x512x16384_S8x512x512_2_2_1_1_0_0_wf : DotDims.WF S8x512x16384 S8x512x16384 S8x512x512 [2] [2] [1] [1] [0] [0]

variable [Facts₀]

def dot_S8x512x16384_S8x512x16384_S8x512x512_2_2_1_1_0_0 : DotDims S8x512x16384 S8x512x16384 S8x512x512 where
  lhsContracting := [2]
  rhsContracting := [2]
  lhsNonContracting := [1]
  rhsNonContracting := [1]
  lhsBatch := [0]
  rhsBatch := [0]
  wf := dot_S8x512x16384_S8x512x16384_S8x512x512_2_2_1_1_0_0_wf

class Facts : Prop extends Facts₀ where

variable [Facts]
-- ==== Proof.K.Region0.lean ====
/-
  Region 0 of @main (the first gram call), at any float instance and at any contents `V` of the core's buffers when
  the region is entered.

  The kernel walks a grid of 8 × 4 points (batch entry b, then a quarter k of the 16384 columns). Its scratch
  accumulator is zeroed at k = 0, receives `acc + a · aᵀ` of the point's 512 × 4096 block `a` at every point, and is
  copied into the output block at k = 3, the only points at which the pipeline writes that block back. So the
  accumulator after point n is a recursion over the points (`sAt0`): restarted from zero where n ≡ 0 (mod 4),
  continued from the point before elsewhere; and what the output's staging buffer holds after a point is the
  accumulator re-laid as a 1 × 512 × 512 block. The region invariant carries the accumulator's contents from one
  point to the next; before the first point and after the last it is the plain invariant of a region that owns its
  scratch buffers at anything.
-/
import proofs.«159150_j57501022159376_1_alg».proof.Proof.Gen.Kernel.Launch
import proofs.«159150_j57501022159376_1_alg».proof.Proof.Gen.Kernel.Skeleton
import proofs.«159150_j57501022159376_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first quarter" (k = 0): the accumulator is zeroed. -/
abbrev first0 (i : grid0.Coords) : Prop :=
  (Scalar.cmpi .ne (Scalar.extui (Scalar.cmpi .eq (BitVec.ofNat 32 (i 1).val) 0#32)) 0#32) = 1#1
/-- "This is the last quarter" (k = 3): the accumulator is copied out. -/
abbrev last0 (i : grid0.Coords) : Prop := k0_cond2 i = 1#1

theorem first0_iff : ∀ t : Fin cfg0.N, first0 (grid0.coords t) ↔ t.val % 4 = 0 :=
  (by decide +kernel : ∀ t : Fin grid0.N, first0 (grid0.coords t) ↔ t.val % 4 = 0)
theorem last0_iff : ∀ t : Fin cfg0.N, last0 (grid0.coords t) ↔ t.val % 4 = 3 :=
  (by decide +kernel : ∀ t : Fin grid0.N, last0 (grid0.coords t) ↔ t.val % 4 = 3)

/-- The input window is never idle; the output window is idle, and not written back, exactly off the last quarter. -/
theorem inLive0 : ∀ t : Fin cfg0.N, cfg0.idle 0 (grid0.coords t) = false := by decide +kernel
theorem outIdle0 : ∀ t : Fin cfg0.N, ¬last0 (grid0.coords t) → cfg0.idle 1 (grid0.coords t) = true := by decide +kernel
theorem outNoFlush0 : ∀ t : Fin cfg0.N, ¬last0 (grid0.coords t) → (cfg0.win 1).flush t = false := by decide +kernel
theorem outLive0 : ∀ t : Fin cfg0.N, last0 (grid0.coords t) → cfg0.idle 1 (grid0.coords t) = false := by decide +kernel

/-! ## The body on whole memrefs, quarter by quarter -/

theorem zeroS0 : (![0, 0] : Fin S512x512.rank → ℕ) = fun _ => 0 := by
  funext a; fin_cases a <;> rfl
theorem zeroX0 : (![0, 0, 0] : Fin S1x512x4096.rank → ℕ) = fun _ => 0 := by
  funext a; fin_cases a <;> rfl
theorem zeroO0 : (![0, 0, 0] : Fin S1x512x512.rank → ℕ) = fun _ => 0 := by
  funext a; fin_cases a <;> rfl

set_option maxHeartbeats 1000000 in
/-- First quarter: whatever the accumulator held, it ends at `0 + a · aᵀ`; the output buffer is not touched. -/
theorem runFirst0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : first0 i) (hl : ¬last0 i) (x : Vec F S1x512x4096 .f32) (o : Vec F S1x512x512 .f32) (E : Set ℕ) (K : PUnit → sProp 𝕄) :
    iprop(owns (c : Thread nD τ) arg2 fullShare x ∗ owns (c : Thread nD τ) arg3 fullShare o ∗ (∃ d, owns (c : Thread nD τ) arg4 fullShare d)
        ∗ (iprop(owns (c : Thread nD τ) arg2 fullShare x ∗ owns (c : Thread nD τ) arg3 fullShare o
            ∗ owns (c : Thread nD τ) arg4 fullShare (k0_pay2 x (k0_pay1 (F := F)))) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_cons_unit_zero zeroS0, View.readCov_unit_zero _ zeroS0, View.readAt_eq_ld, harg2.read_unread,
    View.ld_unit_zero zeroX0]

set_option maxHeartbeats 1000000 in
/-- A middle quarter: the accumulator at `s` ends at `s + a · aᵀ`; the output buffer is not touched. -/
theorem runMid0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first0 i) (hl : ¬last0 i) (x : Vec F S1x512x4096 .f32) (o : Vec F S1x512x512 .f32) (s : Vec F S512x512 .f32) (E : Set ℕ) (K : PUnit → sProp 𝕄) :
    iprop(owns (c : Thread nD τ) arg2 fullShare x ∗ owns (c : Thread nD τ) arg3 fullShare o ∗ owns (c : Thread nD τ) arg4 fullShare s
        ∗ (iprop(owns (c : Thread nD τ) arg2 fullShare x ∗ owns (c : Thread nD τ) arg3 fullShare o
            ∗ owns (c : Thread nD τ) arg4 fullShare (k0_pay2 x s)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_unit_zero zeroS0, View.readAt_eq_ld, View.readAt_eq_ld, harg2.read_unread, harg4.read_unread,
    View.ld_unit_zero zeroX0, View.ld_unit_zero zeroS0]

set_option maxHeartbeats 1000000 in
/-- The last quarter: the accumulator at `s` ends at `s + a · aᵀ`, and the output buffer ends at that, re-laid. -/
theorem runLast0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first0 i) (hl : last0 i) (x : Vec F S1x512x4096 .f32) (s : Vec F S512x512 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k0_pay3 (k0_pay2 x s))
            ∗ owns (c : Thread nD τ) arg4 fullShare (k0_pay2 x s)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeroO0 inb_S1x512x512_S1x512x512_0_0_0 y⟩),
      View.canon_unit_zero zeroO0, View.readCov_unit_zero _ zeroS0, View.readAt_eq_ld, View.readAt_eq_ld,
      harg2.read_unread, harg4.read_unread, View.ld_unit_zero zeroX0, View.ld_unit_zero zeroS0]
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_unit_zero zeroS0, View.readAt_eq_ld, View.readAt_eq_ld, harg2.read_unread, harg4.read_unread,
    View.ld_unit_zero zeroX0, View.ld_unit_zero zeroS0]

/-! ## The blocks, and the accumulator point by point -/

section Data

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data reading `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at position `n`: restarted from zero at the first quarter of a batch entry,
    continued from the position before otherwise. -/
def sAt0 (c : Dev nD) : (n : ℕ) → n < cfg0.N → Vec F S512x512 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (sAt0 c n (Nat.lt_of_succ_lt hn))

theorem sAt0_first (c : Dev nD) (t : Fin cfg0.N) (h : t.val % 4 = 0) :
    sAt0 V c t.val t.isLt = k0_pay2 (iblk0 V c 0 t) (k0_pay1 (F := F)) := by
  obtain ⟨n, hn⟩ := t
  cases n with
  | zero => rfl
  | succ n => exact if_pos h

theorem sAt0_next (c : Dev nD) (t : Fin cfg0.N) (h : t.val % 4 ≠ 0) :
    sAt0 V c t.val t.isLt = k0_pay2 (iblk0 V c 0 t) (sAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant and the proof data -/

/-- The scratch accumulator as a memref. -/
abbrev acc0 : Memref sig .tc .vmem S512x512 .f32 := Memref.whole cc0_scratch0

/-- The core's other scoped buffers that this call does not stage (the second call's), each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The plain region invariant hands out the accumulator as a memref owned at anything, beside the others, -/
theorem PhiA0_open (c : Dev nD) :
    (Pipeline.ΦA spec0 c : sProp 𝕄)
      ⊢ iprop(iprop((∃ d, owns (c : Thread nD τ) acc0 fullShare d) ∗ others0 (F := F) c) ∗ (∃ r, prngReg c r)) := by
  unfold Pipeline.ΦA others0; rw [scopedRest0_eq]; simp only [acc0, owns_whole]
  iintro ⟨⟨HS, H1, H2, H3, H4, H5⟩, Hg⟩
  isplitr [Hg]
  · isplitl [HS]; · iexact HS
    isplitl [H1]; · iexact H1
    isplitl [H2]; · iexact H2
    isplitl [H3]; · iexact H3
    isplitl [H4]; · iexact H4
    iexact H5
  iexact Hg

/-- and takes it back. -/
theorem PhiA0_close (c : Dev nD) :
    (iprop(iprop((∃ d, owns (c : Thread nD τ) acc0 fullShare d) ∗ others0 (F := F) c) ∗ (∃ r, prngReg c r)) : sProp 𝕄)
      ⊢ Pipeline.ΦA spec0 c := by
  unfold Pipeline.ΦA others0; rw [scopedRest0_eq]; simp only [acc0, owns_whole]
  iintro ⟨⟨GS, G1, G2, G3, G4, G5⟩, Gg⟩
  isplitr [Gg]
  · isplitl [GS]; · iexact GS
    isplitl [G1]; · iexact G1
    isplitl [G2]; · iexact G2
    isplitl [G3]; · iexact G3
    isplitl [G4]; · iexact G4
    iexact G5
  iexact Gg

/-- The invariant before position `n`: the plain one before the first point; afterwards the accumulator at what the
    position before left in it. -/
def Phi0 (c : Dev nD) : (n : ℕ) → n ≤ cfg0.N → sProp 𝕄
  | 0, _ => Pipeline.ΦA spec0 c
  | n + 1, hn => iprop(iprop(owns (c : Thread nD τ) acc0 fullShare (sAt0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) acc0 fullShare (sAt0 V c n hn) ∗ others0 (F := F) c) ∗ (∃ r, prngReg c r)) := rfl

theorem Phi0_pos (c : Dev nD) (n : ℕ) (h : n ≤ cfg0.N) (hz : n ≠ 0) :
    Phi0 V c n h = iprop(iprop(owns (c : Thread nD τ) acc0 fullShare (sAt0 V c (n - 1) (by omega)) ∗ others0 (F := F) c) ∗ (∃ r, prngReg c r)) := by
  cases n with
  | zero => exact absurd rfl hz
  | succ n => rfl

/-- The proof data of the call on core `c`: the arrays as the region finds them; after the body the input's buffer at
    its block and the output's at the accumulator re-laid; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (sAt0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (sAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point, by the quarter the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [inLive0 t], after0_0]
  by_cases hl : t.val % 4 = 3
  · -- the last quarter
    have hf : ¬ t.val % 4 = 0 := by omega
    have hz : t.val ≠ 0 := by omega
    rw [show (dat0 V c).leavesExact 1 t = owns (c : Thread nD τ) (ms0_1 t) fullShare ((dat0 V c).after 1 t) from by
      unfold Dat.leavesExact; rw [outLive0 t ((last0_iff t).mpr hl)], after0_1]
    rw [sAt0_next V c t hf, Phi0_castSucc V c t, Phi0_pos V c _ _ hz]
    iintro ⟨⟨⟨HS, Hoth⟩, Hg⟩, Ho, ⟨%d0, H0⟩, ⟨%d1, H1⟩⟩
    iapply (runLast0 c (grid0.coords t) _ _ _ _ _ _ (fun h => hf ((first0_iff t).mp h)) ((last0_iff t).mpr hl) (iblk0 V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1
  · have hnl : ¬last0 (grid0.coords t) := fun h => hl ((last0_iff t).mp h)
    rw [Dat.leavesExact_idle (dat0 V c) 1 t (outIdle0 t hnl) (outNoFlush0 t hnl)]
    by_cases hf : t.val % 4 = 0
    · -- the first quarter
      rw [sAt0_first V c t hf]
      by_cases hz : t.val = 0
      · rw [Phi0_castSucc V c t, Phi0_zero V c _ _ hz]
        refine (sep_mono (PhiA0_open c) .rfl).trans ?_
        iintro ⟨⟨⟨HS, Hoth⟩, Hg⟩, Ho, ⟨%d0, H0⟩, ⟨%d1, H1⟩⟩
        iapply (runFirst0 c (grid0.coords t) _ _ _ _ _ _ ((first0_iff t).mpr hf) hnl (iblk0 V c 0 t) _ Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
      · rw [Phi0_castSucc V c t, Phi0_pos V c _ _ hz]
        iintro ⟨⟨⟨HS, Hoth⟩, Hg⟩, Ho, ⟨%d0, H0⟩, ⟨%d1, H1⟩⟩
        iapply (runFirst0 c (grid0.coords t) _ _ _ _ _ _ ((first0_iff t).mpr hf) hnl (iblk0 V c 0 t) _ Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
    · -- a middle quarter
      have hz : t.val ≠ 0 := fun h => hf (by rw [h])
      rw [sAt0_next V c t hf, Phi0_castSucc V c t, Phi0_pos V c _ _ hz]
      iintro ⟨⟨⟨HS, Hoth⟩, Hg⟩, Ho, ⟨%d0, H0⟩, ⟨%d1, H1⟩⟩
      iapply (runMid0 c (grid0.coords t) _ _ _ _ _ _ (fun h => hf ((first0_iff t).mp h)) hnl (iblk0 V c 0 t) _ _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the plain one back: the accumulator's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = Phi0 V c (Fin.last cfg0.N).val (Nat.le_of_lt_succ (Fin.last cfg0.N).isLt) from rfl,
    Phi0_pos V c _ _ (by rw [Fin.val_last]; omega)]
  refine .trans ?_ (PhiA0_close c)
  iintro ⟨⟨HS, Hoth⟩, Hg⟩
  isplitl [HS Hoth]
  · isplitl [HS]; · iexists _; iexact HS
    iexact Hoth
  iexact Hg

end Data

end Cert.Kernel.Hand
end
-- ==== Proof.K.Region1.lean ====
/-
  Region 1 of @main (the second gram call), at any float instance and at any contents `V` of the core's buffers when
  the region is entered.

  The kernel walks a grid of 8 × 4 points (batch entry b, then a quarter k of the 16384 columns). Its scratch
  accumulator is zeroed at k = 0, receives `acc + a · aᵀ` of the point's 512 × 4096 block `a` at every point, and is
  copied into the output block at k = 3, the only points at which the pipeline writes that block back. So the
  accumulator after point n is a recursion over the points (`sAt1`): restarted from zero where n ≡ 0 (mod 4),
  continued from the point before elsewhere; and what the output's staging buffer holds after a point is the
  accumulator re-laid as a 1 × 512 × 512 block. The region invariant carries the accumulator's contents from one
  point to the next; before the first point and after the last it is the plain invariant of a region that owns its
  scratch buffers at anything.
-/
import proofs.«159150_j57501022159376_1_alg».proof.Proof.Gen.Kernel.Launch
import proofs.«159150_j57501022159376_1_alg».proof.Proof.Gen.Kernel.Skeleton
import proofs.«159150_j57501022159376_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first quarter" (k = 0): the accumulator is zeroed. -/
abbrev first1 (i : grid1.Coords) : Prop :=
  (Scalar.cmpi .ne (Scalar.extui (Scalar.cmpi .eq (BitVec.ofNat 32 (i 1).val) 0#32)) 0#32) = 1#1
/-- "This is the last quarter" (k = 3): the accumulator is copied out. -/
abbrev last1 (i : grid1.Coords) : Prop := k1_cond2 i = 1#1

theorem first1_iff : ∀ t : Fin cfg1.N, first1 (grid1.coords t) ↔ t.val % 4 = 0 :=
  (by decide +kernel : ∀ t : Fin grid1.N, first1 (grid1.coords t) ↔ t.val % 4 = 0)
theorem last1_iff : ∀ t : Fin cfg1.N, last1 (grid1.coords t) ↔ t.val % 4 = 3 :=
  (by decide +kernel : ∀ t : Fin grid1.N, last1 (grid1.coords t) ↔ t.val % 4 = 3)

/-- The input window is never idle; the output window is idle, and not written back, exactly off the last quarter. -/
theorem inLive1 : ∀ t : Fin cfg1.N, cfg1.idle 0 (grid1.coords t) = false := by decide +kernel
theorem outIdle1 : ∀ t : Fin cfg1.N, ¬last1 (grid1.coords t) → cfg1.idle 1 (grid1.coords t) = true := by decide +kernel
theorem outNoFlush1 : ∀ t : Fin cfg1.N, ¬last1 (grid1.coords t) → (cfg1.win 1).flush t = false := by decide +kernel
theorem outLive1 : ∀ t : Fin cfg1.N, last1 (grid1.coords t) → cfg1.idle 1 (grid1.coords t) = false := by decide +kernel

/-! ## The body on whole memrefs, quarter by quarter -/

theorem zeroS1 : (![0, 0] : Fin S512x512.rank → ℕ) = fun _ => 0 := by
  funext a; fin_cases a <;> rfl
theorem zeroX1 : (![0, 0, 0] : Fin S1x512x4096.rank → ℕ) = fun _ => 0 := by
  funext a; fin_cases a <;> rfl
theorem zeroO1 : (![0, 0, 0] : Fin S1x512x512.rank → ℕ) = fun _ => 0 := by
  funext a; fin_cases a <;> rfl

set_option maxHeartbeats 1000000 in
/-- First quarter: whatever the accumulator held, it ends at `0 + a · aᵀ`; the output buffer is not touched. -/
theorem runFirst1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : first1 i) (hl : ¬last1 i) (x : Vec F S1x512x4096 .f32) (o : Vec F S1x512x512 .f32) (E : Set ℕ) (K : PUnit → sProp 𝕄) :
    iprop(owns (c : Thread nD τ) arg2 fullShare x ∗ owns (c : Thread nD τ) arg3 fullShare o ∗ (∃ d, owns (c : Thread nD τ) arg4 fullShare d)
        ∗ (iprop(owns (c : Thread nD τ) arg2 fullShare x ∗ owns (c : Thread nD τ) arg3 fullShare o
            ∗ owns (c : Thread nD τ) arg4 fullShare (k1_pay2 x (k1_pay1 (F := F)))) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_cons_unit_zero zeroS1, View.readCov_unit_zero _ zeroS1, View.readAt_eq_ld, harg2.read_unread,
    View.ld_unit_zero zeroX1]

set_option maxHeartbeats 1000000 in
/-- A middle quarter: the accumulator at `s` ends at `s + a · aᵀ`; the output buffer is not touched. -/
theorem runMid1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first1 i) (hl : ¬last1 i) (x : Vec F S1x512x4096 .f32) (o : Vec F S1x512x512 .f32) (s : Vec F S512x512 .f32) (E : Set ℕ) (K : PUnit → sProp 𝕄) :
    iprop(owns (c : Thread nD τ) arg2 fullShare x ∗ owns (c : Thread nD τ) arg3 fullShare o ∗ owns (c : Thread nD τ) arg4 fullShare s
        ∗ (iprop(owns (c : Thread nD τ) arg2 fullShare x ∗ owns (c : Thread nD τ) arg3 fullShare o
            ∗ owns (c : Thread nD τ) arg4 fullShare (k1_pay2 x s)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_unit_zero zeroS1, View.readAt_eq_ld, View.readAt_eq_ld, harg2.read_unread, harg4.read_unread,
    View.ld_unit_zero zeroX1, View.ld_unit_zero zeroS1]

set_option maxHeartbeats 1000000 in
/-- The last quarter: the accumulator at `s` ends at `s + a · aᵀ`, and the output buffer ends at that, re-laid. -/
theorem runLast1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first1 i) (hl : last1 i) (x : Vec F S1x512x4096 .f32) (s : Vec F S512x512 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k1_pay3 (k1_pay2 x s))
            ∗ owns (c : Thread nD τ) arg4 fullShare (k1_pay2 x s)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeroO1 inb_S1x512x512_S1x512x512_0_0_0 y⟩),
      View.canon_unit_zero zeroO1, View.readCov_unit_zero _ zeroS1, View.readAt_eq_ld, View.readAt_eq_ld,
      harg2.read_unread, harg4.read_unread, View.ld_unit_zero zeroX1, View.ld_unit_zero zeroS1]
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_unit_zero zeroS1, View.readAt_eq_ld, View.readAt_eq_ld, harg2.read_unread, harg4.read_unread,
    View.ld_unit_zero zeroX1, View.ld_unit_zero zeroS1]

/-! ## The blocks, and the accumulator point by point -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data reading `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The accumulator after the body at position `n`: restarted from zero at the first quarter of a batch entry,
    continued from the position before otherwise. -/
def sAt1 (c : Dev nD) : (n : ℕ) → n < cfg1.N → Vec F S512x512 .f32
  | 0, hn => k1_pay2 (iblk1 V c 0 ⟨0, hn⟩) (k1_pay1 (F := F))
  | n + 1, hn =>
    if (n + 1) % 4 = 0 then k1_pay2 (iblk1 V c 0 ⟨n + 1, hn⟩) (k1_pay1 (F := F))
    else k1_pay2 (iblk1 V c 0 ⟨n + 1, hn⟩) (sAt1 c n (Nat.lt_of_succ_lt hn))

theorem sAt1_first (c : Dev nD) (t : Fin cfg1.N) (h : t.val % 4 = 0) :
    sAt1 V c t.val t.isLt = k1_pay2 (iblk1 V c 0 t) (k1_pay1 (F := F)) := by
  obtain ⟨n, hn⟩ := t
  cases n with
  | zero => rfl
  | succ n => exact if_pos h

theorem sAt1_next (c : Dev nD) (t : Fin cfg1.N) (h : t.val % 4 ≠ 0) :
    sAt1 V c t.val t.isLt = k1_pay2 (iblk1 V c 0 t) (sAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant and the proof data -/

/-- The scratch accumulator as a memref. -/
abbrev acc1 : Memref sig .tc .vmem S512x512 .f32 := Memref.whole cc1_scratch0

/-- The core's other scoped buffers that this call does not stage (the second call's), each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The plain region invariant hands out the accumulator as a memref owned at anything, beside the others, -/
theorem PhiA1_open (c : Dev nD) :
    (Pipeline.ΦA spec1 c : sProp 𝕄)
      ⊢ iprop(iprop((∃ d, owns (c : Thread nD τ) acc1 fullShare d) ∗ others1 (F := F) c) ∗ (∃ r, prngReg c r)) := by
  unfold Pipeline.ΦA others1; rw [scopedRest1_eq]; simp only [acc1, owns_whole]
  iintro ⟨⟨H1, H2, H3, H4, H5, HS⟩, Hg⟩
  isplitr [Hg]
  · isplitl [HS]; · iexact HS
    isplitl [H1]; · iexact H1
    isplitl [H2]; · iexact H2
    isplitl [H3]; · iexact H3
    isplitl [H4]; · iexact H4
    iexact H5
  iexact Hg

/-- and takes it back. -/
theorem PhiA1_close (c : Dev nD) :
    (iprop(iprop((∃ d, owns (c : Thread nD τ) acc1 fullShare d) ∗ others1 (F := F) c) ∗ (∃ r, prngReg c r)) : sProp 𝕄)
      ⊢ Pipeline.ΦA spec1 c := by
  unfold Pipeline.ΦA others1; rw [scopedRest1_eq]; simp only [acc1, owns_whole]
  iintro ⟨⟨GS, G1, G2, G3, G4, G5⟩, Gg⟩
  isplitr [Gg]
  · isplitl [G1]; · iexact G1
    isplitl [G2]; · iexact G2
    isplitl [G3]; · iexact G3
    isplitl [G4]; · iexact G4
    isplitl [G5]; · iexact G5
    iexact GS
  iexact Gg

/-- The invariant before position `n`: the plain one before the first point; afterwards the accumulator at what the
    position before left in it. -/
def Phi1 (c : Dev nD) : (n : ℕ) → n ≤ cfg1.N → sProp 𝕄
  | 0, _ => Pipeline.ΦA spec1 c
  | n + 1, hn => iprop(iprop(owns (c : Thread nD τ) acc1 fullShare (sAt1 V c n hn) ∗ others1 (F := F) c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) acc1 fullShare (sAt1 V c n hn) ∗ others1 (F := F) c) ∗ (∃ r, prngReg c r)) := rfl

theorem Phi1_pos (c : Dev nD) (n : ℕ) (h : n ≤ cfg1.N) (hz : n ≠ 0) :
    Phi1 V c n h = iprop(iprop(owns (c : Thread nD τ) acc1 fullShare (sAt1 V c (n - 1) (by omega)) ∗ others1 (F := F) c) ∗ (∃ r, prngReg c r)) := by
  cases n with
  | zero => exact absurd rfl hz
  | succ n => rfl

/-- The proof data of the call on core `c`: the arrays as the region finds them; after the body the input's buffer at
    its block and the output's at the accumulator re-laid; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay3 (sAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = k1_pay3 (sAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

abbrev ms1_0 (t : Fin cfg1.N) : Memref sig .tc .vmem S1x512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 2000000 in
/-- The body at any point, by the quarter the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [inLive1 t], after1_0]
  by_cases hl : t.val % 4 = 3
  · -- the last quarter
    have hf : ¬ t.val % 4 = 0 := by omega
    have hz : t.val ≠ 0 := by omega
    rw [show (dat1 V c).leavesExact 1 t = owns (c : Thread nD τ) (ms1_1 t) fullShare ((dat1 V c).after 1 t) from by
      unfold Dat.leavesExact; rw [outLive1 t ((last1_iff t).mpr hl)], after1_1]
    rw [sAt1_next V c t hf, Phi1_castSucc V c t, Phi1_pos V c _ _ hz]
    iintro ⟨⟨⟨HS, Hoth⟩, Hg⟩, Ho, ⟨%d0, H0⟩, ⟨%d1, H1⟩⟩
    iapply (runLast1 c (grid1.coords t) _ _ _ _ _ _ (fun h => hf ((first1_iff t).mp h)) ((last1_iff t).mpr hl) (iblk1 V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1
  · have hnl : ¬last1 (grid1.coords t) := fun h => hl ((last1_iff t).mp h)
    rw [Dat.leavesExact_idle (dat1 V c) 1 t (outIdle1 t hnl) (outNoFlush1 t hnl)]
    by_cases hf : t.val % 4 = 0
    · -- the first quarter
      rw [sAt1_first V c t hf]
      by_cases hz : t.val = 0
      · rw [Phi1_castSucc V c t, Phi1_zero V c _ _ hz]
        refine (sep_mono (PhiA1_open c) .rfl).trans ?_
        iintro ⟨⟨⟨HS, Hoth⟩, Hg⟩, Ho, ⟨%d0, H0⟩, ⟨%d1, H1⟩⟩
        iapply (runFirst1 c (grid1.coords t) _ _ _ _ _ _ ((first1_iff t).mpr hf) hnl (iblk1 V c 0 t) _ Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
      · rw [Phi1_castSucc V c t, Phi1_pos V c _ _ hz]
        iintro ⟨⟨⟨HS, Hoth⟩, Hg⟩, Ho, ⟨%d0, H0⟩, ⟨%d1, H1⟩⟩
        iapply (runFirst1 c (grid1.coords t) _ _ _ _ _ _ ((first1_iff t).mpr hf) hnl (iblk1 V c 0 t) _ Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
    · -- a middle quarter
      have hz : t.val ≠ 0 := fun h => hf (by rw [h])
      rw [sAt1_next V c t hf, Phi1_castSucc V c t, Phi1_pos V c _ _ hz]
      iintro ⟨⟨⟨HS, Hoth⟩, Hg⟩, Ho, ⟨%d0, H0⟩, ⟨%d1, H1⟩⟩
      iapply (runMid1 c (grid1.coords t) _ _ _ _ _ _ (fun h => hf ((first1_iff t).mp h)) hnl (iblk1 V c 0 t) _ _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the plain one back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = Phi1 V c (Fin.last cfg1.N).val (Nat.le_of_lt_succ (Fin.last cfg1.N).isLt) from rfl,
    Phi1_pos V c _ _ (by rw [Fin.val_last]; omega)]
  refine .trans ?_ (PhiA1_close c)
  iintro ⟨⟨HS, Hoth⟩, Hg⟩
  isplitl [HS Hoth]
  · isplitl [HS]; · iexists _; iexact HS
    iexact Hoth
  iexact Hg

end Data

end Cert.Kernel.Hand
end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.K.Run.lean ====
/-
  The run of @main, at any float instance: eight segments in order — a reshape of the first argument, the first gram
  call, a reshape of the second argument, the second gram call, and four stretches of host operations (the diagonal of
  the first gram, its square root, the diagonal of the second gram, and the normalisation and the mean of squares).

  Between two segments a core holds every unscoped buffer whole at a valuation (`W0` … `W8`, folded from the launch
  memory: a host stretch applies its operations, a gram call replaces its two arrays by what its write-backs leave),
  beside the generator register at some state and the core owing nothing. The launch theorem for a list of segments
  then gives termination and, at the end, every unscoped buffer at `W8`.
-/
import proofs.«159150_j57501022159376_1_alg».proof.Proof.K.Region0
import proofs.«159150_j57501022159376_1_alg».proof.Proof.K.Region1
import proofs.«159150_j57501022159376_1_alg».proof.Proof.LibClassARegion
import proofs.«159150_j57501022159376_1_alg».proof.Proof.Gen.Kernel.Regions
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first reshape (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit: its two arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (the second call's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the second call's exit: its two arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the diagonal of the first gram. -/
abbrev W5 : Dev nD → Valuation τ sig (Elt F) := fun c => StableHlo.after hostOps2 (W4 m ρ c)
/-- After its square root. -/
abbrev W6 : Dev nD → Valuation τ sig (Elt F) := fun c => StableHlo.after hostOps2_1 (W5 m ρ c)
/-- After the diagonal of the second gram. -/
abbrev W7 : Dev nD → Valuation τ sig (Elt F) := fun c => StableHlo.after hostOps2_2 (W6 m ρ c)
/-- After the normalisation and the mean of squares: the end of @main. -/
abbrev W8 : Dev nD → Valuation τ sig (Elt F) := fun c => StableHlo.after hostOps2_3 (W7 m ρ c)

theorem W8_eq (c : Dev nD) : W8 m ρ c = StableHlo.after hostOps2_3 (StableHlo.after hostOps2_2 (StableHlo.after hostOps2_1
    (StableHlo.after hostOps2 (W4 m ρ c)))) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, the core owing
    nothing. -/
abbrev R (c : Dev nD) : sProp 𝕄 := Pipeline.ClassA.rides (U' := UR sig nD τ) c
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The two gram calls as segments -/

set_option backward.isDefEq.respectTransparency.types false in
/-- The first gram call: entered from every unscoped buffer at `W1`, left at `W2`. -/
def reg0 : Pipeline.RegionSeg (pcfgs (F := F)) adm (pdats m ρ) () defs₀ 𝒱₀ L lv 0 :=
  Pipeline.ClassA.region (U' := UR sig nD τ) (pcfgs (F := F)) adm (pdats m ρ) defs₀ 𝒱₀ L lv 0 launch0.toP
    (fun c => body_obligation0 (V1 m ρ) c) (fun _ _ => rfl) (fun _ _ => rfl) (fun _ _ => rfl)
    (hin0 (V1 m ρ)) (hout0 (V1 m ρ))
    (fun c => by unfold Pipeline.prefHeld; rw [show (Finset.univ : Finset (Fin 0)) = ∅ from rfl, BI.bigSep_empty])
    (W1 m ρ) (W2 m ρ) (fun _ _ => rfl) (hF0 m ρ) (hrest0 m ρ)

set_option backward.isDefEq.respectTransparency.types false in
/-- The second gram call: entered from every unscoped buffer at `W3`, left at `W4`. -/
def reg1 : Pipeline.RegionSeg (pcfgs (F := F)) adm (pdats m ρ) () defs₀ 𝒱₀ L lv 1 :=
  Pipeline.ClassA.region (U' := UR sig nD τ) (pcfgs (F := F)) adm (pdats m ρ) defs₀ 𝒱₀ L lv 1 launch1.toP
    (fun c => body_obligation1 (V3 m ρ) c) (fun _ _ => rfl) (fun _ _ => rfl) (fun _ _ => rfl)
    (hin1 (V3 m ρ)) (hout1 (V3 m ρ))
    (fun c => by unfold Pipeline.prefHeld; rw [show (Finset.univ : Finset (Fin 0)) = ∅ from rfl, BI.bigSep_empty])
    (W3 m ρ) (W4 m ρ) (fun _ _ => rfl) (hF1 m ρ) (hrest1 m ρ)

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Pipeline.ClassA.rides (U' := UR sig nD τ) c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ Pipeline.ClassA.rides (U' := UR sig nD τ) c)
          ⊢ iprop(Tₙ m ρ c ∗ ∃ W, owes (c : Thread nD τ) (0 : CellTallies nD τ sig Unit) W)
        unfold Pipeline.ClassA.rides
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      unfold Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-! ## Reading the fold back -/

/-- The first argument ends as launched: no host operation writes it and no call has it among its arrays. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps2_3 _ hostOps2_3_writes (by decide : main_arg0 ∉ hostOps2_3_W)
    _ = W6 m ρ c (Proc.devRef .tc main_arg0) := StableHlo.after_of_writes_sub hostOps2_2 _ hostOps2_2_writes (by decide : main_arg0 ∉ hostOps2_2_W)
    _ = W5 m ρ c (Proc.devRef .tc main_arg0) := StableHlo.after_of_writes_sub hostOps2_1 _ hostOps2_1_writes (by decide : main_arg0 ∉ hostOps2_1_W)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- The second argument ends as launched. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps2_3 _ hostOps2_3_writes (by decide : main_arg1 ∉ hostOps2_3_W)
    _ = W6 m ρ c (Proc.devRef .tc main_arg1) := StableHlo.after_of_writes_sub hostOps2_2 _ hostOps2_2_writes (by decide : main_arg1 ∉ hostOps2_2_W)
    _ = W5 m ρ c (Proc.devRef .tc main_arg1) := StableHlo.after_of_writes_sub hostOps2_1 _ hostOps2_1_writes (by decide : main_arg1 ∉ hostOps2_1_W)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- THE FRAME: every weakly fair execution of @main terminates, nothing faulting, and every final state has the two
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W8_main_arg0 m ρ c),
     (h c _ (mem_uc main_arg1 (by decide))).trans (W8_main_arg1 m ρ c)⟩) (run_all m ρ)

/-- After the second call the first gram's array still holds what the first call's write-backs left: the second call's
    arrays are others, and the reshape between the calls writes another buffer. -/
theorem W4_main_v1 (c : Dev nD) : W4 m ρ c (Proc.devRef .tc main_v1) = (dat0 (V1 m ρ) c).arrAt 1 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)
    _ = (dat0 (V1 m ρ) c).arrAt 1 cfg0.N := W2_arr m ρ c 1

/-- After the second call the second gram's array holds what that call's write-backs left. -/
theorem W4_main_v3 (c : Dev nD) : W4 m ρ c (Proc.devRef .tc main_v3) = (dat1 (V3 m ρ) c).arrAt 1 cfg1.N :=
  W4_arr m ρ c 1

/-- The first call's input array is the first argument re-laid as 8 × 512 × 16384. -/
theorem V1_main_v0 (c : Dev nD) : V1 m ρ c main_v0
    = shapeCast S8x512x16384 (m ((c : Thread nD τ).loc main_arg0)) shapeCasts_S8x512x128x128_S8x512x16384 := by
  dsimp only [V1, W1, hostOps0]; after_results; rfl

/-- The second call's input array is the second argument re-laid as 8 × 512 × 16384. -/
theorem V3_main_v2 (c : Dev nD) : V3 m ρ c main_v2
    = shapeCast S8x512x16384 (m ((c : Thread nD τ).loc main_arg1)) shapeCasts_S8x512x128x128_S8x512x16384 := by
  have h1 : W2 m ρ c (Proc.devRef .tc main_arg1) = m ((c : Thread nD τ).loc main_arg1) :=
    (W2_of_ne m ρ c main_arg1 (by decide)).trans
      (StableHlo.after_of_writes_sub hostOps0 _ hostOps0_writes (by decide : main_arg1 ∉ hostOps0_W))
  dsimp only [V3, W3, hostOps1]; after_results; rw [h1]; rfl

end Cert.Kernel.Hand
end
-- ==== Proof.KI.Region0.lean ====
/-
  Region 0 of @main (the first gram call), at any float instance and at any contents `V` of the core's buffers when
  the region is entered.

  The kernel walks a grid of 8 × 4 points (batch entry b, then a quarter k of the 16384 columns). Its scratch
  accumulator is zeroed at k = 0, receives `acc + a · aᵀ` of the point's 512 × 4096 block `a` at every point, and is
  copied into the output block at k = 3, the only points at which the pipeline writes that block back. So the
  accumulator after point n is a recursion over the points (`sAt0`): restarted from zero where n ≡ 0 (mod 4),
  continued from the point before elsewhere; and what the output's staging buffer holds after a point is the
  accumulator re-laid as a 1 × 512 × 512 block. The region invariant carries the accumulator's contents from one
  point to the next; before the first point and after the last it is the plain invariant of a region that owns its
  scratch buffers at anything.
-/
import proofs.«159150_j57501022159376_1_alg».proof.Proof.Gen.KernelIdeal.Launch
import proofs.«159150_j57501022159376_1_alg».proof.Proof.Gen.KernelIdeal.Skeleton
import proofs.«159150_j57501022159376_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first quarter" (k = 0): the accumulator is zeroed. -/
abbrev first0 (i : grid0.Coords) : Prop :=
  (Scalar.cmpi .ne (Scalar.extui (Scalar.cmpi .eq (BitVec.ofNat 32 (i 1).val) 0#32)) 0#32) = 1#1
/-- "This is the last quarter" (k = 3): the accumulator is copied out. -/
abbrev last0 (i : grid0.Coords) : Prop := k0_cond2 i = 1#1

theorem first0_iff : ∀ t : Fin cfg0.N, first0 (grid0.coords t) ↔ t.val % 4 = 0 :=
  (by decide +kernel : ∀ t : Fin grid0.N, first0 (grid0.coords t) ↔ t.val % 4 = 0)
theorem last0_iff : ∀ t : Fin cfg0.N, last0 (grid0.coords t) ↔ t.val % 4 = 3 :=
  (by decide +kernel : ∀ t : Fin grid0.N, last0 (grid0.coords t) ↔ t.val % 4 = 3)

/-- The input window is never idle; the output window is idle, and not written back, exactly off the last quarter. -/
theorem inLive0 : ∀ t : Fin cfg0.N, cfg0.idle 0 (grid0.coords t) = false := by decide +kernel
theorem outIdle0 : ∀ t : Fin cfg0.N, ¬last0 (grid0.coords t) → cfg0.idle 1 (grid0.coords t) = true := by decide +kernel
theorem outNoFlush0 : ∀ t : Fin cfg0.N, ¬last0 (grid0.coords t) → (cfg0.win 1).flush t = false := by decide +kernel
theorem outLive0 : ∀ t : Fin cfg0.N, last0 (grid0.coords t) → cfg0.idle 1 (grid0.coords t) = false := by decide +kernel

/-! ## The body on whole memrefs, quarter by quarter -/

theorem zeroS0 : (![0, 0] : Fin S512x512.rank → ℕ) = fun _ => 0 := by
  funext a; fin_cases a <;> rfl
theorem zeroX0 : (![0, 0, 0] : Fin S1x512x4096.rank → ℕ) = fun _ => 0 := by
  funext a; fin_cases a <;> rfl
theorem zeroO0 : (![0, 0, 0] : Fin S1x512x512.rank → ℕ) = fun _ => 0 := by
  funext a; fin_cases a <;> rfl

set_option maxHeartbeats 1000000 in
/-- First quarter: whatever the accumulator held, it ends at `0 + a · aᵀ`; the output buffer is not touched. -/
theorem runFirst0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : first0 i) (hl : ¬last0 i) (x : Vec F S1x512x4096 .f32) (o : Vec F S1x512x512 .f32) (E : Set ℕ) (K : PUnit → sProp 𝕄) :
    iprop(owns (c : Thread nD τ) arg2 fullShare x ∗ owns (c : Thread nD τ) arg3 fullShare o ∗ (∃ d, owns (c : Thread nD τ) arg4 fullShare d)
        ∗ (iprop(owns (c : Thread nD τ) arg2 fullShare x ∗ owns (c : Thread nD τ) arg3 fullShare o
            ∗ owns (c : Thread nD τ) arg4 fullShare (k0_pay2 x (k0_pay1 (F := F)))) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_cons_unit_zero zeroS0, View.readCov_unit_zero _ zeroS0, View.readAt_eq_ld, harg2.read_unread,
    View.ld_unit_zero zeroX0]

set_option maxHeartbeats 1000000 in
/-- A middle quarter: the accumulator at `s` ends at `s + a · aᵀ`; the output buffer is not touched. -/
theorem runMid0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first0 i) (hl : ¬last0 i) (x : Vec F S1x512x4096 .f32) (o : Vec F S1x512x512 .f32) (s : Vec F S512x512 .f32) (E : Set ℕ) (K : PUnit → sProp 𝕄) :
    iprop(owns (c : Thread nD τ) arg2 fullShare x ∗ owns (c : Thread nD τ) arg3 fullShare o ∗ owns (c : Thread nD τ) arg4 fullShare s
        ∗ (iprop(owns (c : Thread nD τ) arg2 fullShare x ∗ owns (c : Thread nD τ) arg3 fullShare o
            ∗ owns (c : Thread nD τ) arg4 fullShare (k0_pay2 x s)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_unit_zero zeroS0, View.readAt_eq_ld, View.readAt_eq_ld, harg2.read_unread, harg4.read_unread,
    View.ld_unit_zero zeroX0, View.ld_unit_zero zeroS0]

set_option maxHeartbeats 1000000 in
/-- The last quarter: the accumulator at `s` ends at `s + a · aᵀ`, and the output buffer ends at that, re-laid. -/
theorem runLast0 (c : Dev nD) (i : grid0.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first0 i) (hl : last0 i) (x : Vec F S1x512x4096 .f32) (s : Vec F S512x512 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k0_pay3 (k0_pay2 x s))
            ∗ owns (c : Thread nD τ) arg4 fullShare (k0_pay2 x s)) -∗ K ⟨⟩))
      ⊢ wp frame (wpE (defs₀ (F := F)) Variants.none c none) E (cc0__gram_kernel i arg2 harg2 arg3 harg3 arg4 harg4) K := by
  simp only [cc0__gram_kernel_eq_skeleton]; unfold cc0__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeroO0 inb_S1x512x512_S1x512x512_0_0_0 y⟩),
      View.canon_unit_zero zeroO0, View.readCov_unit_zero _ zeroS0, View.readAt_eq_ld, View.readAt_eq_ld,
      harg2.read_unread, harg4.read_unread, View.ld_unit_zero zeroX0, View.ld_unit_zero zeroS0]
  iexists _; isplitr
  swap; · iexact HS0
  ipureintro
  sl_unfold_words
  rw [View.read_writes_eq_canon _ _ _ (fun y => ⟨_, List.mem_cons_self .., View.mem_set_unit_zero zeroS0 inb_S512x512_S512x512_0_0 y⟩),
    View.canon_unit_zero zeroS0, View.readAt_eq_ld, View.readAt_eq_ld, harg2.read_unread, harg4.read_unread,
    View.ld_unit_zero zeroX0, View.ld_unit_zero zeroS0]

/-! ## The blocks, and the accumulator point by point -/

section Data

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data reading `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The accumulator after the body at position `n`: restarted from zero at the first quarter of a batch entry,
    continued from the position before otherwise. -/
def sAt0 (c : Dev nD) : (n : ℕ) → n < cfg0.N → Vec F S512x512 .f32
  | 0, hn => k0_pay2 (iblk0 V c 0 ⟨0, hn⟩) (k0_pay1 (F := F))
  | n + 1, hn =>
    if (n + 1) % 4 = 0 then k0_pay2 (iblk0 V c 0 ⟨n + 1, hn⟩) (k0_pay1 (F := F))
    else k0_pay2 (iblk0 V c 0 ⟨n + 1, hn⟩) (sAt0 c n (Nat.lt_of_succ_lt hn))

theorem sAt0_first (c : Dev nD) (t : Fin cfg0.N) (h : t.val % 4 = 0) :
    sAt0 V c t.val t.isLt = k0_pay2 (iblk0 V c 0 t) (k0_pay1 (F := F)) := by
  obtain ⟨n, hn⟩ := t
  cases n with
  | zero => rfl
  | succ n => exact if_pos h

theorem sAt0_next (c : Dev nD) (t : Fin cfg0.N) (h : t.val % 4 ≠ 0) :
    sAt0 V c t.val t.isLt = k0_pay2 (iblk0 V c 0 t) (sAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant and the proof data -/

/-- The scratch accumulator as a memref. -/
abbrev acc0 : Memref sig .tc .vmem S512x512 .f32 := Memref.whole cc0_scratch0

/-- The core's other scoped buffers that this call does not stage (the second call's), each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The plain region invariant hands out the accumulator as a memref owned at anything, beside the others, -/
theorem PhiA0_open (c : Dev nD) :
    (Pipeline.ΦA spec0 c : sProp 𝕄)
      ⊢ iprop(iprop((∃ d, owns (c : Thread nD τ) acc0 fullShare d) ∗ others0 (F := F) c) ∗ (∃ r, prngReg c r)) := by
  unfold Pipeline.ΦA others0; rw [scopedRest0_eq]; simp only [acc0, owns_whole]
  iintro ⟨⟨HS, H1, H2, H3, H4, H5⟩, Hg⟩
  isplitr [Hg]
  · isplitl [HS]; · iexact HS
    isplitl [H1]; · iexact H1
    isplitl [H2]; · iexact H2
    isplitl [H3]; · iexact H3
    isplitl [H4]; · iexact H4
    iexact H5
  iexact Hg

/-- and takes it back. -/
theorem PhiA0_close (c : Dev nD) :
    (iprop(iprop((∃ d, owns (c : Thread nD τ) acc0 fullShare d) ∗ others0 (F := F) c) ∗ (∃ r, prngReg c r)) : sProp 𝕄)
      ⊢ Pipeline.ΦA spec0 c := by
  unfold Pipeline.ΦA others0; rw [scopedRest0_eq]; simp only [acc0, owns_whole]
  iintro ⟨⟨GS, G1, G2, G3, G4, G5⟩, Gg⟩
  isplitr [Gg]
  · isplitl [GS]; · iexact GS
    isplitl [G1]; · iexact G1
    isplitl [G2]; · iexact G2
    isplitl [G3]; · iexact G3
    isplitl [G4]; · iexact G4
    iexact G5
  iexact Gg

/-- The invariant before position `n`: the plain one before the first point; afterwards the accumulator at what the
    position before left in it. -/
def Phi0 (c : Dev nD) : (n : ℕ) → n ≤ cfg0.N → sProp 𝕄
  | 0, _ => Pipeline.ΦA spec0 c
  | n + 1, hn => iprop(iprop(owns (c : Thread nD τ) acc0 fullShare (sAt0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) acc0 fullShare (sAt0 V c n hn) ∗ others0 (F := F) c) ∗ (∃ r, prngReg c r)) := rfl

theorem Phi0_pos (c : Dev nD) (n : ℕ) (h : n ≤ cfg0.N) (hz : n ≠ 0) :
    Phi0 V c n h = iprop(iprop(owns (c : Thread nD τ) acc0 fullShare (sAt0 V c (n - 1) (by omega)) ∗ others0 (F := F) c) ∗ (∃ r, prngReg c r)) := by
  cases n with
  | zero => exact absurd rfl hz
  | succ n => rfl

/-- The proof data of the call on core `c`: the arrays as the region finds them; after the body the input's buffer at
    its block and the output's at the accumulator re-laid; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (sAt0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (sAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .f32 := win0_1.stage (cfg0.slots t 1)
abbrev hs0_1 (t : Fin cfg0.N) : (ms0_1 t).IsWhole := hstage0_1 ((cfg0.slots t 1).cast nbuf0_1)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point, by the quarter the point is in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [inLive0 t], after0_0]
  by_cases hl : t.val % 4 = 3
  · -- the last quarter
    have hf : ¬ t.val % 4 = 0 := by omega
    have hz : t.val ≠ 0 := by omega
    rw [show (dat0 V c).leavesExact 1 t = owns (c : Thread nD τ) (ms0_1 t) fullShare ((dat0 V c).after 1 t) from by
      unfold Dat.leavesExact; rw [outLive0 t ((last0_iff t).mpr hl)], after0_1]
    rw [sAt0_next V c t hf, Phi0_castSucc V c t, Phi0_pos V c _ _ hz]
    iintro ⟨⟨⟨HS, Hoth⟩, Hg⟩, Ho, ⟨%d0, H0⟩, ⟨%d1, H1⟩⟩
    iapply (runLast0 c (grid0.coords t) _ _ _ _ _ _ (fun h => hf ((first0_iff t).mp h)) ((last0_iff t).mpr hl) (iblk0 V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1
  · have hnl : ¬last0 (grid0.coords t) := fun h => hl ((last0_iff t).mp h)
    rw [Dat.leavesExact_idle (dat0 V c) 1 t (outIdle0 t hnl) (outNoFlush0 t hnl)]
    by_cases hf : t.val % 4 = 0
    · -- the first quarter
      rw [sAt0_first V c t hf]
      by_cases hz : t.val = 0
      · rw [Phi0_castSucc V c t, Phi0_zero V c _ _ hz]
        refine (sep_mono (PhiA0_open c) .rfl).trans ?_
        iintro ⟨⟨⟨HS, Hoth⟩, Hg⟩, Ho, ⟨%d0, H0⟩, ⟨%d1, H1⟩⟩
        iapply (runFirst0 c (grid0.coords t) _ _ _ _ _ _ ((first0_iff t).mpr hf) hnl (iblk0 V c 0 t) _ Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
      · rw [Phi0_castSucc V c t, Phi0_pos V c _ _ hz]
        iintro ⟨⟨⟨HS, Hoth⟩, Hg⟩, Ho, ⟨%d0, H0⟩, ⟨%d1, H1⟩⟩
        iapply (runFirst0 c (grid0.coords t) _ _ _ _ _ _ ((first0_iff t).mpr hf) hnl (iblk0 V c 0 t) _ Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
    · -- a middle quarter
      have hz : t.val ≠ 0 := fun h => hf (by rw [h])
      rw [sAt0_next V c t hf, Phi0_castSucc V c t, Phi0_pos V c _ _ hz]
      iintro ⟨⟨⟨HS, Hoth⟩, Hg⟩, Ho, ⟨%d0, H0⟩, ⟨%d1, H1⟩⟩
      iapply (runMid0 c (grid0.coords t) _ _ _ _ _ _ (fun h => hf ((first0_iff t).mp h)) hnl (iblk0 V c 0 t) _ _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the plain one back: the accumulator's contents are forgotten. -/
theorem hout0 (c : Dev nD) : (dat0 V c).Φ (Fin.last cfg0.N) ⊢ Pipeline.ΦA spec0 c := by
  have hN : cfg0.N = 32 := N_0
  rw [show (dat0 V c).Φ (Fin.last cfg0.N) = Phi0 V c (Fin.last cfg0.N).val (Nat.le_of_lt_succ (Fin.last cfg0.N).isLt) from rfl,
    Phi0_pos V c _ _ (by rw [Fin.val_last]; omega)]
  refine .trans ?_ (PhiA0_close c)
  iintro ⟨⟨HS, Hoth⟩, Hg⟩
  isplitl [HS Hoth]
  · isplitl [HS]; · iexists _; iexact HS
    iexact Hoth
  iexact Hg

end Data

end Cert.KernelIdeal.Hand
end
-- ==== Proof.KI.Region1.lean ====
/-
  Region 1 of @main (the second gram call), at any float instance and at any contents `V` of the core's buffers when
  the region is entered.

  The kernel walks a grid of 8 × 4 points (batch entry b, then a quarter k of the 16384 columns). Its scratch
  accumulator is zeroed at k = 0, receives `acc + a · aᵀ` of the point's 512 × 4096 block `a` at every point, and is
  copied into the output block at k = 3, the only points at which the pipeline writes that block back. So the
  accumulator after point n is a recursion over the points (`sAt1`): restarted from zero where n ≡ 0 (mod 4),
  continued from the point before elsewhere; and what the output's staging buffer holds after a point is the
  accumulator re-laid as a 1 × 512 × 512 block. The region invariant carries the accumulator's contents from one
  point to the next; before the first point and after the last it is the plain invariant of a region that owns its
  scratch buffers at anything.
-/
import proofs.«159150_j57501022159376_1_alg».proof.Proof.Gen.KernelIdeal.Launch
import proofs.«159150_j57501022159376_1_alg».proof.Proof.Gen.KernelIdeal.Skeleton
import proofs.«159150_j57501022159376_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, over the grid -/

/-- "This is the first quarter" (k = 0): the accumulator is zeroed. -/
abbrev first1 (i : grid1.Coords) : Prop :=
  (Scalar.cmpi .ne (Scalar.extui (Scalar.cmpi .eq (BitVec.ofNat 32 (i 1).val) 0#32)) 0#32) = 1#1
/-- "This is the last quarter" (k = 3): the accumulator is copied out. -/
abbrev last1 (i : grid1.Coords) : Prop := k1_cond2 i = 1#1

theorem first1_iff : ∀ t : Fin cfg1.N, first1 (grid1.coords t) ↔ t.val % 4 = 0 :=
  (by decide +kernel : ∀ t : Fin grid1.N, first1 (grid1.coords t) ↔ t.val % 4 = 0)
theorem last1_iff : ∀ t : Fin cfg1.N, last1 (grid1.coords t) ↔ t.val % 4 = 3 :=
  (by decide +kernel : ∀ t : Fin grid1.N, last1 (grid1.coords t) ↔ t.val % 4 = 3)

/-- The input window is never idle; the output window is idle, and not written back, exactly off the last quarter. -/
theorem inLive1 : ∀ t : Fin cfg1.N, cfg1.idle 0 (grid1.coords t) = false := by decide +kernel
theorem outIdle1 : ∀ t : Fin cfg1.N, ¬last1 (grid1.coords t) → cfg1.idle 1 (grid1.coords t) = true := by decide +kernel
theorem outNoFlush1 : ∀ t : Fin cfg1.N, ¬last1 (grid1.coords t) → (cfg1.win 1).flush t = false := by decide +kernel
theorem outLive1 : ∀ t : Fin cfg1.N, last1 (grid1.coords t) → cfg1.idle 1 (grid1.coords t) = false := by decide +kernel

/-! ## The body on whole memrefs, quarter by quarter -/

theorem zeroS1 : (![0, 0] : Fin S512x512.rank → ℕ) = fun _ => 0 := by
  funext a; fin_cases a <;> rfl
theorem zeroX1 : (![0, 0, 0] : Fin S1x512x4096.rank → ℕ) = fun _ => 0 := by
  funext a; fin_cases a <;> rfl
theorem zeroO1 : (![0, 0, 0] : Fin S1x512x512.rank → ℕ) = fun _ => 0 := by
  funext a; fin_cases a <;> rfl

set_option maxHeartbeats 1000000 in
/-- First quarter: whatever the accumulator held, it ends at `0 + a · aᵀ`; the output buffer is not touched. -/
theorem runFirst1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : first1 i) (hl : ¬last1 i) (x : Vec F S1x512x4096 .f32) (o : Vec F S1x512x512 .f32) (E : Set ℕ) (K : PUnit → sProp 𝕄) :
    iprop(owns (c : Thread nD τ) arg2 fullShare x ∗ owns (c : Thread nD τ) arg3 fullShare o ∗ (∃ d, owns (c : Thread nD τ) arg4 fullShare d)
        ∗ (iprop(owns (c : Thread nD τ) arg2 fullShare x ∗ owns (c : Thread nD τ) arg3 fullShare o
            ∗ owns (c : Thread nD τ) arg4 fullShare (k1_pay2 x (k1_pay1 (F := F)))) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_cons_unit_zero zeroS1, View.readCov_unit_zero _ zeroS1, View.readAt_eq_ld, harg2.read_unread,
    View.ld_unit_zero zeroX1]

set_option maxHeartbeats 1000000 in
/-- A middle quarter: the accumulator at `s` ends at `s + a · aᵀ`; the output buffer is not touched. -/
theorem runMid1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first1 i) (hl : ¬last1 i) (x : Vec F S1x512x4096 .f32) (o : Vec F S1x512x512 .f32) (s : Vec F S512x512 .f32) (E : Set ℕ) (K : PUnit → sProp 𝕄) :
    iprop(owns (c : Thread nD τ) arg2 fullShare x ∗ owns (c : Thread nD τ) arg3 fullShare o ∗ owns (c : Thread nD τ) arg4 fullShare s
        ∗ (iprop(owns (c : Thread nD τ) arg2 fullShare x ∗ owns (c : Thread nD τ) arg3 fullShare o
            ∗ owns (c : Thread nD τ) arg4 fullShare (k1_pay2 x s)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_unit_zero zeroS1, View.readAt_eq_ld, View.readAt_eq_ld, harg2.read_unread, harg4.read_unread,
    View.ld_unit_zero zeroX1, View.ld_unit_zero zeroS1]

set_option maxHeartbeats 1000000 in
/-- The last quarter: the accumulator at `s` ends at `s + a · aᵀ`, and the output buffer ends at that, re-laid. -/
theorem runLast1 (c : Dev nD) (i : grid1.Coords) (arg2 : Memref sig .tc .vmem S1x512x4096 .f32) (harg2 : arg2.IsWhole)
    (arg3 : Memref sig .tc .vmem S1x512x512 .f32) (harg3 : arg3.IsWhole) (arg4 : Memref sig .tc .vmem S512x512 .f32) (harg4 : arg4.IsWhole)
    (hf : ¬first1 i) (hl : last1 i) (x : Vec F S1x512x4096 .f32) (s : Vec F S512x512 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k1_pay3 (k1_pay2 x s))
            ∗ owns (c : Thread nD τ) arg4 fullShare (k1_pay2 x s)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hf | exact hl)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeroO1 inb_S1x512x512_S1x512x512_0_0_0 y⟩),
      View.canon_unit_zero zeroO1, View.readCov_unit_zero _ zeroS1, View.readAt_eq_ld, View.readAt_eq_ld,
      harg2.read_unread, harg4.read_unread, View.ld_unit_zero zeroX1, View.ld_unit_zero zeroS1]
  iexists _; isplitr
  swap; · iexact HS0
  ipureintro
  sl_unfold_words
  rw [View.read_writes_eq_canon _ _ _ (fun y => ⟨_, List.mem_cons_self .., View.mem_set_unit_zero zeroS1 inb_S512x512_S512x512_0_0 y⟩),
    View.canon_unit_zero zeroS1, View.readAt_eq_ld, View.readAt_eq_ld, harg2.read_unread, harg4.read_unread,
    View.ld_unit_zero zeroX1, View.ld_unit_zero zeroS1]

/-! ## The blocks, and the accumulator point by point -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data reading `V` whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The accumulator after the body at position `n`: restarted from zero at the first quarter of a batch entry,
    continued from the position before otherwise. -/
def sAt1 (c : Dev nD) : (n : ℕ) → n < cfg1.N → Vec F S512x512 .f32
  | 0, hn => k1_pay2 (iblk1 V c 0 ⟨0, hn⟩) (k1_pay1 (F := F))
  | n + 1, hn =>
    if (n + 1) % 4 = 0 then k1_pay2 (iblk1 V c 0 ⟨n + 1, hn⟩) (k1_pay1 (F := F))
    else k1_pay2 (iblk1 V c 0 ⟨n + 1, hn⟩) (sAt1 c n (Nat.lt_of_succ_lt hn))

theorem sAt1_first (c : Dev nD) (t : Fin cfg1.N) (h : t.val % 4 = 0) :
    sAt1 V c t.val t.isLt = k1_pay2 (iblk1 V c 0 t) (k1_pay1 (F := F)) := by
  obtain ⟨n, hn⟩ := t
  cases n with
  | zero => rfl
  | succ n => exact if_pos h

theorem sAt1_next (c : Dev nD) (t : Fin cfg1.N) (h : t.val % 4 ≠ 0) :
    sAt1 V c t.val t.isLt = k1_pay2 (iblk1 V c 0 t) (sAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant and the proof data -/

/-- The scratch accumulator as a memref. -/
abbrev acc1 : Memref sig .tc .vmem S512x512 .f32 := Memref.whole cc1_scratch0

/-- The core's other scoped buffers that this call does not stage (the second call's), each at anything. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The plain region invariant hands out the accumulator as a memref owned at anything, beside the others, -/
theorem PhiA1_open (c : Dev nD) :
    (Pipeline.ΦA spec1 c : sProp 𝕄)
      ⊢ iprop(iprop((∃ d, owns (c : Thread nD τ) acc1 fullShare d) ∗ others1 (F := F) c) ∗ (∃ r, prngReg c r)) := by
  unfold Pipeline.ΦA others1; rw [scopedRest1_eq]; simp only [acc1, owns_whole]
  iintro ⟨⟨H1, H2, H3, H4, H5, HS⟩, Hg⟩
  isplitr [Hg]
  · isplitl [HS]; · iexact HS
    isplitl [H1]; · iexact H1
    isplitl [H2]; · iexact H2
    isplitl [H3]; · iexact H3
    isplitl [H4]; · iexact H4
    iexact H5
  iexact Hg

/-- and takes it back. -/
theorem PhiA1_close (c : Dev nD) :
    (iprop(iprop((∃ d, owns (c : Thread nD τ) acc1 fullShare d) ∗ others1 (F := F) c) ∗ (∃ r, prngReg c r)) : sProp 𝕄)
      ⊢ Pipeline.ΦA spec1 c := by
  unfold Pipeline.ΦA others1; rw [scopedRest1_eq]; simp only [acc1, owns_whole]
  iintro ⟨⟨GS, G1, G2, G3, G4, G5⟩, Gg⟩
  isplitr [Gg]
  · isplitl [G1]; · iexact G1
    isplitl [G2]; · iexact G2
    isplitl [G3]; · iexact G3
    isplitl [G4]; · iexact G4
    isplitl [G5]; · iexact G5
    iexact GS
  iexact Gg

/-- The invariant before position `n`: the plain one before the first point; afterwards the accumulator at what the
    position before left in it. -/
def Phi1 (c : Dev nD) : (n : ℕ) → n ≤ cfg1.N → sProp 𝕄
  | 0, _ => Pipeline.ΦA spec1 c
  | n + 1, hn => iprop(iprop(owns (c : Thread nD τ) acc1 fullShare (sAt1 V c n hn) ∗ others1 (F := F) c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) acc1 fullShare (sAt1 V c n hn) ∗ others1 (F := F) c) ∗ (∃ r, prngReg c r)) := rfl

theorem Phi1_pos (c : Dev nD) (n : ℕ) (h : n ≤ cfg1.N) (hz : n ≠ 0) :
    Phi1 V c n h = iprop(iprop(owns (c : Thread nD τ) acc1 fullShare (sAt1 V c (n - 1) (by omega)) ∗ others1 (F := F) c) ∗ (∃ r, prngReg c r)) := by
  cases n with
  | zero => exact absurd rfl hz
  | succ n => rfl

/-- The proof data of the call on core `c`: the arrays as the region finds them; after the body the input's buffer at
    its block and the output's at the accumulator re-laid; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay3 (sAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = k1_pay3 (sAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

abbrev ms1_0 (t : Fin cfg1.N) : Memref sig .tc .vmem S1x512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 2000000 in
/-- The body at any point, by the quarter the point is in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [inLive1 t], after1_0]
  by_cases hl : t.val % 4 = 3
  · -- the last quarter
    have hf : ¬ t.val % 4 = 0 := by omega
    have hz : t.val ≠ 0 := by omega
    rw [show (dat1 V c).leavesExact 1 t = owns (c : Thread nD τ) (ms1_1 t) fullShare ((dat1 V c).after 1 t) from by
      unfold Dat.leavesExact; rw [outLive1 t ((last1_iff t).mpr hl)], after1_1]
    rw [sAt1_next V c t hf, Phi1_castSucc V c t, Phi1_pos V c _ _ hz]
    iintro ⟨⟨⟨HS, Hoth⟩, Hg⟩, Ho, ⟨%d0, H0⟩, ⟨%d1, H1⟩⟩
    iapply (runLast1 c (grid1.coords t) _ _ _ _ _ _ (fun h => hf ((first1_iff t).mp h)) ((last1_iff t).mpr hl) (iblk1 V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1
  · have hnl : ¬last1 (grid1.coords t) := fun h => hl ((last1_iff t).mp h)
    rw [Dat.leavesExact_idle (dat1 V c) 1 t (outIdle1 t hnl) (outNoFlush1 t hnl)]
    by_cases hf : t.val % 4 = 0
    · -- the first quarter
      rw [sAt1_first V c t hf]
      by_cases hz : t.val = 0
      · rw [Phi1_castSucc V c t, Phi1_zero V c _ _ hz]
        refine (sep_mono (PhiA1_open c) .rfl).trans ?_
        iintro ⟨⟨⟨HS, Hoth⟩, Hg⟩, Ho, ⟨%d0, H0⟩, ⟨%d1, H1⟩⟩
        iapply (runFirst1 c (grid1.coords t) _ _ _ _ _ _ ((first1_iff t).mpr hf) hnl (iblk1 V c 0 t) _ Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
      · rw [Phi1_castSucc V c t, Phi1_pos V c _ _ hz]
        iintro ⟨⟨⟨HS, Hoth⟩, Hg⟩, Ho, ⟨%d0, H0⟩, ⟨%d1, H1⟩⟩
        iapply (runFirst1 c (grid1.coords t) _ _ _ _ _ _ ((first1_iff t).mpr hf) hnl (iblk1 V c 0 t) _ Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        iexists _; iexact H1
    · -- a middle quarter
      have hz : t.val ≠ 0 := fun h => hf (by rw [h])
      rw [sAt1_next V c t hf, Phi1_castSucc V c t, Phi1_pos V c _ _ hz]
      iintro ⟨⟨⟨HS, Hoth⟩, Hg⟩, Ho, ⟨%d0, H0⟩, ⟨%d1, H1⟩⟩
      iapply (runMid1 c (grid1.coords t) _ _ _ _ _ _ (fun h => hf ((first1_iff t).mp h)) hnl (iblk1 V c 0 t) _ _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the plain one back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = Phi1 V c (Fin.last cfg1.N).val (Nat.le_of_lt_succ (Fin.last cfg1.N).isLt) from rfl,
    Phi1_pos V c _ _ (by rw [Fin.val_last]; omega)]
  refine .trans ?_ (PhiA1_close c)
  iintro ⟨⟨HS, Hoth⟩, Hg⟩
  isplitl [HS Hoth]
  · isplitl [HS]; · iexists _; iexact HS
    iexact Hoth
  iexact Hg

end Data

end Cert.KernelIdeal.Hand
end
-- ==== Proof.KI.Run.lean ====
/-
  The run of @main, at any float instance: eight segments in order — a reshape of the first argument, the first gram
  call, a reshape of the second argument, the second gram call, and four stretches of host operations (the diagonal of
  the first gram, its square root, the diagonal of the second gram, and the normalisation and the mean of squares).

  Between two segments a core holds every unscoped buffer whole at a valuation (`W0` … `W8`, folded from the launch
  memory: a host stretch applies its operations, a gram call replaces its two arrays by what its write-backs leave),
  beside the generator register at some state and the core owing nothing. The launch theorem for a list of segments
  then gives termination and, at the end, every unscoped buffer at `W8`.
-/
import proofs.«159150_j57501022159376_1_alg».proof.Proof.KI.Region0
import proofs.«159150_j57501022159376_1_alg».proof.Proof.KI.Region1
import proofs.«159150_j57501022159376_1_alg».proof.Proof.LibClassARegion
import proofs.«159150_j57501022159376_1_alg».proof.Proof.Gen.KernelIdeal.Regions
import Idealize.ShloMosaic.Lib.Pipeline.RegionsLoop
import Idealize.ShloMosaic.Lib.Pipeline.FrameSuffix
import Idealize.ShloMosaic.Lib.Pipeline.Regions
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first reshape (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit: its two arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (the second call's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At the second call's exit: its two arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the diagonal of the first gram. -/
abbrev W5 : Dev nD → Valuation τ sig (Elt F) := fun c => StableHlo.after hostOps2 (W4 m ρ c)
/-- After its square root. -/
abbrev W6 : Dev nD → Valuation τ sig (Elt F) := fun c => StableHlo.after hostOps2_1 (W5 m ρ c)
/-- After the diagonal of the second gram. -/
abbrev W7 : Dev nD → Valuation τ sig (Elt F) := fun c => StableHlo.after hostOps2_2 (W6 m ρ c)
/-- After the normalisation and the mean of squares: the end of @main. -/
abbrev W8 : Dev nD → Valuation τ sig (Elt F) := fun c => StableHlo.after hostOps2_3 (W7 m ρ c)

theorem W8_eq (c : Dev nD) : W8 m ρ c = StableHlo.after hostOps2_3 (StableHlo.after hostOps2_2 (StableHlo.after hostOps2_1
    (StableHlo.after hostOps2 (W4 m ρ c)))) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, the core owing
    nothing. -/
abbrev R (c : Dev nD) : sProp 𝕄 := Pipeline.ClassA.rides (U' := UR sig nD τ) c
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W8`, the generator register at some state. -/
abbrev Tₙ (c : Dev nD) : sProp 𝕄 := iprop(StableHlo.held (c : Thread nD τ) (Pipeline.ucRefs τ sig) (W8 m ρ c) ∗ ∃ r, prngReg c r)

/-! ## The two gram calls as segments -/

set_option backward.isDefEq.respectTransparency.types false in
/-- The first gram call: entered from every unscoped buffer at `W1`, left at `W2`. -/
def reg0 : Pipeline.RegionSeg (pcfgs (F := F)) adm (pdats m ρ) () defs₀ 𝒱₀ L lv 0 :=
  Pipeline.ClassA.region (U' := UR sig nD τ) (pcfgs (F := F)) adm (pdats m ρ) defs₀ 𝒱₀ L lv 0 launch0.toP
    (fun c => body_obligation0 (V1 m ρ) c) (fun _ _ => rfl) (fun _ _ => rfl) (fun _ _ => rfl)
    (hin0 (V1 m ρ)) (hout0 (V1 m ρ))
    (fun c => by unfold Pipeline.prefHeld; rw [show (Finset.univ : Finset (Fin 0)) = ∅ from rfl, BI.bigSep_empty])
    (W1 m ρ) (W2 m ρ) (fun _ _ => rfl) (hF0 m ρ) (hrest0 m ρ)

set_option backward.isDefEq.respectTransparency.types false in
/-- The second gram call: entered from every unscoped buffer at `W3`, left at `W4`. -/
def reg1 : Pipeline.RegionSeg (pcfgs (F := F)) adm (pdats m ρ) () defs₀ 𝒱₀ L lv 1 :=
  Pipeline.ClassA.region (U' := UR sig nD τ) (pcfgs (F := F)) adm (pdats m ρ) defs₀ 𝒱₀ L lv 1 launch1.toP
    (fun c => body_obligation1 (V3 m ρ) c) (fun _ _ => rfl) (fun _ _ => rfl) (fun _ _ => rfl)
    (hin1 (V3 m ρ)) (hout1 (V3 m ρ))
    (fun c => by unfold Pipeline.prefHeld; rw [show (Finset.univ : Finset (Fin 0)) = ∅ from rfl, BI.bigSep_empty])
    (W3 m ρ) (W4 m ρ) (fun _ _ => rfl) (hF1 m ρ) (hrest1 m ρ)

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)) ]

/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at `W8`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Pipeline.ClassA.rides (U' := UR sig nD τ) c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ Pipeline.ClassA.rides (U' := UR sig nD τ) c)
          ⊢ iprop(Tₙ m ρ c ∗ ∃ W, owes (c : Thread nD τ) (0 : CellTallies nD τ sig Unit) W)
        unfold Pipeline.ClassA.rides
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      unfold Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-! ## Reading the fold back -/

/-- The first argument ends as launched: no host operation writes it and no call has it among its arrays. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps2_3 _ hostOps2_3_writes (by decide : main_arg0 ∉ hostOps2_3_W)
    _ = W6 m ρ c (Proc.devRef .tc main_arg0) := StableHlo.after_of_writes_sub hostOps2_2 _ hostOps2_2_writes (by decide : main_arg0 ∉ hostOps2_2_W)
    _ = W5 m ρ c (Proc.devRef .tc main_arg0) := StableHlo.after_of_writes_sub hostOps2_1 _ hostOps2_1_writes (by decide : main_arg0 ∉ hostOps2_1_W)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

/-- The second argument ends as launched. -/
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps2_3 _ hostOps2_3_writes (by decide : main_arg1 ∉ hostOps2_3_W)
    _ = W6 m ρ c (Proc.devRef .tc main_arg1) := StableHlo.after_of_writes_sub hostOps2_2 _ hostOps2_2_writes (by decide : main_arg1 ∉ hostOps2_2_W)
    _ = W5 m ρ c (Proc.devRef .tc main_arg1) := StableHlo.after_of_writes_sub hostOps2_1 _ hostOps2_1_writes (by decide : main_arg1 ∉ hostOps2_1_W)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

/-- THE FRAME: every weakly fair execution of @main terminates, nothing faulting, and every final state has the two
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W8_main_arg0 m ρ c),
     (h c _ (mem_uc main_arg1 (by decide))).trans (W8_main_arg1 m ρ c)⟩) (run_all m ρ)

/-- After the second call the first gram's array still holds what the first call's write-backs left: the second call's
    arrays are others, and the reshape between the calls writes another buffer. -/
theorem W4_main_v1 (c : Dev nD) : W4 m ρ c (Proc.devRef .tc main_v1) = (dat0 (V1 m ρ) c).arrAt 1 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps1 _ hostOps1_writes (by decide : main_v1 ∉ hostOps1_W)
    _ = (dat0 (V1 m ρ) c).arrAt 1 cfg0.N := W2_arr m ρ c 1

/-- After the second call the second gram's array holds what that call's write-backs left. -/
theorem W4_main_v3 (c : Dev nD) : W4 m ρ c (Proc.devRef .tc main_v3) = (dat1 (V3 m ρ) c).arrAt 1 cfg1.N :=
  W4_arr m ρ c 1

/-- The first call's input array is the first argument re-laid as 8 × 512 × 16384. -/
theorem V1_main_v0 (c : Dev nD) : V1 m ρ c main_v0
    = shapeCast S8x512x16384 (m ((c : Thread nD τ).loc main_arg0)) shapeCasts_S8x512x128x128_S8x512x16384 := by
  dsimp only [V1, W1, hostOps0]; after_results; rfl

/-- The second call's input array is the second argument re-laid as 8 × 512 × 16384. -/
theorem V3_main_v2 (c : Dev nD) : V3 m ρ c main_v2
    = shapeCast S8x512x16384 (m ((c : Thread nD τ).loc main_arg1)) shapeCasts_S8x512x128x128_S8x512x16384 := by
  have h1 : W2 m ρ c (Proc.devRef .tc main_arg1) = m ((c : Thread nD τ).loc main_arg1) :=
    (W2_of_ne m ρ c main_arg1 (by decide)).trans
      (StableHlo.after_of_writes_sub hostOps0 _ hostOps0_writes (by decide : main_arg1 ∉ hostOps0_W))
  dsimp only [V3, W3, hostOps1]; after_results; rw [h1]; rfl

end Cert.KernelIdeal.Hand
end
-- ==== Proof.Spec.lean ====
/-
  The channel gram matrix of a batch of 8 feature maps, 512 channels by 16384 positions each, over the extended reals:
  entry (b, p, q) is the sum over the positions n of x[b, p, n] · x[b, q, n]. Both programs compute it — one as four
  partial sums of 4096 positions accumulated in turn, the other as one contraction — and its diagonal is the squared
  norm of a channel.
-/
import Idealize.ShloMosaic.PureOps.Ideal
import Idealize.ShloMosaic.Lib.ValueIdx

noncomputable section

open scoped BigOperators

namespace Cert.Spec

open Idealize.ShloMosaic Idealize.ShloMosaic.ValueIdx

/-- The gram entry (b, p, q) of `x`. -/
def gram (x : (⟨3, ![8, 512, 16384]⟩ : Shape).Idx → EReal) (b : Fin 8) (p q : Fin 512) : EReal :=
  ∑ n : Fin 16384, x (ix3 b p n) * x (ix3 b q n)

/-- The same entry as four partial sums over quarters of the positions, accumulated in order from zero: what a
    run of four grid points leaves. -/
def gramQ (x : (⟨3, ![8, 512, 16384]⟩ : Shape).Idx → EReal) (b : Fin 8) (p q : Fin 512) : ℕ → EReal
  | 0 => 0
  | k + 1 => gramQ x b p q k + ∑ n : Fin 4096, (if h : 4096 * k + n.val < 16384 then x (ix3 b p ⟨4096 * k + n.val, h⟩) * x (ix3 b q ⟨4096 * k + n.val, h⟩) else 0)

end Cert.Spec

end
-- ==== Proof.KI.Gram0.lean ====
/-
  The value of the first gram call's output array.

  The call walks 8 × 4 points: batch entry b, then a quarter k of the 16384 positions. At each point the scratch
  accumulator takes its old contents (zero at k = 0) plus a · aᵀ of the point's 512 × 4096 block a, so after the
  quarter k of batch entry b its entry (p, q) is the sum of x[b, p, n] · x[b, q, n] over the first k + 1 quarters of
  the positions n; at k = 3 that is the whole contraction, and the accumulator is copied out as block (b, ·, ·) of the
  output. The eight blocks written back tile the output array, so the array ends holding the gram matrix of every
  batch entry.
-/
import proofs.«159150_j57501022159376_1_alg».proof.Proof.KI.Region0
import proofs.«159150_j57501022159376_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

open scoped BigOperators

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

/-! ## Four quarters make the whole contraction -/

/-- The partial sums over quarters are the sum over an initial range of the positions. -/
private theorem gramQ_range (x : (⟨3, ![8, 512, 16384]⟩ : Shape).Idx → EReal) (b : Fin 8) (p q : Fin 512) (k : ℕ) :
    Cert.Spec.gramQ x b p q k
      = ∑ i ∈ Finset.range (4096 * k), (if h : i < 16384 then x (ix3 b p ⟨i, h⟩) * x (ix3 b q ⟨i, h⟩) else 0) := by
  induction k with
  | zero => simp [Cert.Spec.gramQ]
  | succ k ih =>
    rw [show 4096 * (k + 1) = 4096 * k + 4096 from by ring, Finset.sum_range_add, ← ih]
    exact congrArg (fun s => Cert.Spec.gramQ x b p q k + s)
      (Fin.sum_univ_eq_sum_range (fun i => if h : 4096 * k + i < 16384 then x (ix3 b p ⟨4096 * k + i, h⟩) * x (ix3 b q ⟨4096 * k + i, h⟩) else 0) 4096)

/-- After four quarters the partial sum is the gram entry. -/
private theorem gramQ_four (x : (⟨3, ![8, 512, 16384]⟩ : Shape).Idx → EReal) (b : Fin 8) (p q : Fin 512) :
    Cert.Spec.gramQ x b p q 4 = Cert.Spec.gram x b p q := by
  rw [gramQ_range]
  unfold Cert.Spec.gram
  rw [show 4096 * 4 = 16384 from rfl,
    ← Fin.sum_univ_eq_sum_range (fun i => if h : i < 16384 then x (ix3 b p ⟨i, h⟩) * x (ix3 b q ⟨i, h⟩) else 0) 16384]
  refine Finset.sum_congr rfl fun n _ => ?_
  rw [dif_pos n.isLt]

/-! ## The body's payloads at an index -/

/-- The product's left operand at output (r, ·) and contraction position n is read at row r … -/
private theorem dot_lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- … and column n; -/
private theorem dot_lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- its right operand at output (·, c) is read at row n … -/
private theorem dot_rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- … and column c. -/
private theorem dot_rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- a · aᵀ into a zero accumulator, at (p, q): the sum over the columns n of a[p, n] · a[q, n]. -/
private theorem selfProduct_apply (a : FVec Ideal S512x4096 .bf16) (p q : Fin 512) :
    matmul dot_S512x4096_S4096x512_S512x512_1_0_0_1_n_n none a (transpose S4096x512 [1, 0] a transposes_S512x4096_p1_0_S4096x512)
        (constant (F := Ideal) S512x512 .f32 0x00000000#32) (ix2 p q)
      = ∑ n : Fin 4096, a (ix2 p n) * a (ix2 q n) := by
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ => exact dot_lhs_row _ _
    | ⟨1, _⟩ => exact (dot_lhs_col _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (dot_rhs_row _ _).trans hk
    | ⟨1, _⟩ => exact dot_rhs_col _ _)
  rw [el, er, transpose_apply [1, 0] a transposes_S512x4096_p1_0_S4096x512 (ix2 k q) (ix2 q k)
    (fun b => by match b with | ⟨0, _⟩ => rfl | ⟨1, _⟩ => rfl)]

/-- The block with its unit axis dropped, at (p, n), is the block at (0, p, n). -/
private theorem dropUnit_apply (x : Vec Ideal S1x512x4096 .f32) (p : Fin 512) (n : Fin 4096) :
    shapeCast S512x4096 x shapeCasts_S1x512x4096_S512x4096 (ix2 p n) = x (ix3 0 p n) := by
  refine (shapeCast_dropUnit_apply ![512, 4096] x shapeCasts_S1x512x4096_S512x4096 (ix2 p n)).trans (congrArg x ?_)
  funext a
  match a with
  | ⟨0, _⟩ => rfl
  | ⟨1, _⟩ => rfl
  | ⟨2, _⟩ => rfl

/-- The accumulating payload at (p, q): the old entry plus the block's row p against its row q. -/
theorem k0_pay2_apply (x : Vec Ideal S1x512x4096 .f32) (s : Vec Ideal S512x512 .f32) (p q : Fin 512) :
    k0_pay2 x s (ix2 p q) = s (ix2 p q) + ∑ n : Fin 4096, x (ix3 0 p n) * x (ix3 0 q n) := by
  unfold k0_pay2
  rw [shapeCast_self, addf_apply, selfProduct_apply]
  refine congrArg (fun r => s (ix2 p q) + r) (Finset.sum_congr rfl fun n _ => ?_)
  rw [truncf_apply, truncf_apply, dropUnit_apply, dropUnit_apply]

/-- The zeroing payload is zero everywhere. -/
theorem k0_pay1_apply (p q : Fin 512) : k0_pay1 (F := Ideal) (ix2 p q) = 0 := by
  unfold k0_pay1
  rw [shapeCast_self, broadcast_apply]
  exact Ideal.ofBits_zero_f32

/-- The copied-out payload at (0, p, q) is the accumulator at (p, q). -/
theorem k0_pay3_apply (v : Vec Ideal S512x512 .f32) (p q : Fin 512) : k0_pay3 v (ix3 0 p q) = v (ix2 p q) := by
  unfold k0_pay3
  refine (shapeCast_addUnit_apply ![512, 512] v shapeCasts_S512x512_S1x512x512 (ix3 0 p q)).trans (congrArg v ?_)
  funext a
  match a with
  | ⟨0, _⟩ => rfl
  | ⟨1, _⟩ => rfl

/-! ## The input blocks, read off the array -/

section Value

variable (V : (c : Dev nD) → (b : Ref sig .tc) → Buf (Elt Ideal) ((c : Thread nD τ).loc b))

/-- The input array as the region finds it. -/
abbrev xarr0 (c : Dev nD) : (⟨3, ![8, 512, 16384]⟩ : Shape).Idx → EReal := V c main_v0

/-- The input's block at a point, as a 1 × 512 × 4096 vector. -/
abbrev xblk0 (c : Dev nD) (t : Fin cfg0.N) : Vec Ideal S1x512x4096 .f32 := iblk0 V c 0 t

/-- The block indices, decided over the grid: point t = 4·b + k takes the input's block (b, 0, k) and the output's
    block (b, 0, 0). -/
theorem idx_facts0 : ∀ t : Fin cfg0.N, win0_0.index t (0 : Fin 3) = t.val / 4 ∧ win0_0.index t (1 : Fin 3) = 0
    ∧ win0_0.index t (2 : Fin 3) = t.val % 4
    ∧ win0_1.index t (0 : Fin 3) = t.val / 4 ∧ win0_1.index t (1 : Fin 3) = 0 ∧ win0_1.index t (2 : Fin 3) = 0 :=
  (by decide +kernel : ∀ t : Fin grid0.N, _)

/-- The block of point 4·b + k at (0, p, n) is the array at (b, p, 4096·k + n). -/
theorem xblk0_apply (c : Dev nD) (t : Fin cfg0.N) (b : Fin 8) (k : ℕ) (ht : t.val = 4 * b.val + k) (hk : k < 4)
    (p : Fin 512) (n : Fin 4096) :
    xblk0 V c t (ix3 0 p n) = xarr0 V c (ix3 b p ⟨4096 * k + n.val, by have := n.isLt; omega⟩) := by
  obtain ⟨e0, e1, e2, -, -, -⟩ := idx_facts0 t
  show V c main_v0 (((cfg0.win 0).blk t).view.emb (ix3 0 p n)) = V c main_v0 (ix3 b p ⟨4096 * k + n.val, _⟩)
  refine congrArg (V c main_v0) ?_
  funext a; apply Fin.ext
  match a with
  | ⟨0, _⟩ => show win0_0.index t (0 : Fin 3) * 1 + 1 * 0 = b.val; omega
  | ⟨1, _⟩ => show win0_0.index t (1 : Fin 3) * 512 + 1 * p.val = p.val; omega
  | ⟨2, _⟩ => show win0_0.index t (2 : Fin 3) * 4096 + 1 * n.val = 4096 * k + n.val; omega

/-! ## The accumulator, quarter by quarter -/

/-- The partial sums, unrolled once. -/
private theorem gramQ_succ (x : (⟨3, ![8, 512, 16384]⟩ : Shape).Idx → EReal) (b : Fin 8) (p q : Fin 512) (k : ℕ) :
    Cert.Spec.gramQ x b p q (k + 1) = Cert.Spec.gramQ x b p q k
      + ∑ n : Fin 4096, (if h : 4096 * k + n.val < 16384 then x (ix3 b p ⟨4096 * k + n.val, h⟩) * x (ix3 b q ⟨4096 * k + n.val, h⟩) else 0) := rfl
private theorem gramQ_zero (x : (⟨3, ![8, 512, 16384]⟩ : Shape).Idx → EReal) (b : Fin 8) (p q : Fin 512) :
    Cert.Spec.gramQ x b p q 0 = 0 := rfl

/-- The accumulator's recursion does not depend on how its position is written. -/
theorem sAt0_congr (c : Dev nD) (n m : ℕ) (e : n = m) (hn : n < cfg0.N) (hm : m < cfg0.N) :
    sAt0 V c n hn = sAt0 V c m hm := by subst e; rfl

/-- After quarter k of batch entry b the accumulator holds the partial sums over the first k + 1 quarters. -/
theorem sAt0_apply (c : Dev nD) (b : Fin 8) (p q : Fin 512) (k : ℕ) :
    ∀ (hk : k < 4) (h : 4 * b.val + k < cfg0.N),
      sAt0 V c (4 * b.val + k) h (ix2 p q) = Cert.Spec.gramQ (xarr0 V c) b p q (k + 1) := by
  induction k with
  | zero =>
    intro hk h
    have hf := sAt0_first V c ⟨4 * b.val + 0, h⟩ (by show (4 * b.val + 0) % 4 = 0; omega)
    rw [show sAt0 V c (4 * b.val + 0) h = k0_pay2 (xblk0 V c ⟨4 * b.val + 0, h⟩) (k0_pay1 (F := Ideal)) from hf]
    rw [k0_pay2_apply, k0_pay1_apply, gramQ_succ, gramQ_zero]
    refine congrArg (fun r => (0 : EReal) + r) (Finset.sum_congr rfl fun n _ => ?_)
    rw [xblk0_apply V c ⟨4 * b.val + 0, h⟩ b 0 rfl hk p n, xblk0_apply V c ⟨4 * b.val + 0, h⟩ b 0 rfl hk q n,
      dif_pos (by have := n.isLt; omega)]
  | succ k ih =>
    intro hk h
    have hn := sAt0_next V c ⟨4 * b.val + (k + 1), h⟩ (by show (4 * b.val + (k + 1)) % 4 ≠ 0; omega)
    have hprev := ih (by omega) (by omega)
    rw [show sAt0 V c (4 * b.val + (k + 1)) h
        = k0_pay2 (xblk0 V c ⟨4 * b.val + (k + 1), h⟩) (sAt0 V c (4 * b.val + k) (by omega)) from
      hn.trans (congrArg (k0_pay2 (xblk0 V c ⟨4 * b.val + (k + 1), h⟩)) (sAt0_congr V c _ _ (by show 4 * b.val + (k + 1) - 1 = 4 * b.val + k; omega) _ _))]
    rw [k0_pay2_apply, hprev, gramQ_succ (xarr0 V c) b p q (k + 1)]
    refine congrArg (fun r => Cert.Spec.gramQ (xarr0 V c) b p q (k + 1) + r) (Finset.sum_congr rfl fun n _ => ?_)
    rw [xblk0_apply V c ⟨4 * b.val + (k + 1), h⟩ b (k + 1) rfl hk p n, xblk0_apply V c ⟨4 * b.val + (k + 1), h⟩ b (k + 1) rfl hk q n,
      dif_pos (by have := n.isLt; omega)]

end Value

/-! ## From the blocks to the array -/

section Array

variable (V : (c : Dev nD) → (b : Ref sig .tc) → Buf (Elt Ideal) ((c : Thread nD τ).loc b))

/-- What the output array ends holding: entry (b, p, q) is the gram entry of batch entry b's rows p and q. -/
abbrev gramArr0 (c : Dev nD) : (⟨3, ![8, 512, 512]⟩ : Shape).Idx → EReal :=
  fun j => Cert.Spec.gram (xarr0 V c) (j 0) (j 1) (j 2)

/-- The copied-out payload at an index of the 1 × 512 × 512 block whose last two coordinates are p and q. -/
theorem k0_pay3_at (v : Vec Ideal S512x512 .f32) (j : S1x512x512.Idx) (p q : Fin 512) (hp : (j 1).val = p.val)
    (hq : (j 2).val = q.val) : k0_pay3 v j = v (ix2 p q) := by
  unfold k0_pay3
  refine (shapeCast_addUnit_apply ![512, 512] v shapeCasts_S512x512_S1x512x512 j).trans (congrArg v ?_)
  funext a; apply Fin.ext
  match a with
  | ⟨0, _⟩ => exact hp
  | ⟨1, _⟩ => exact hq

/-- The gram array at an index whose coordinates are b, p and q. -/
theorem gramArr0_at (c : Dev nD) (i : S8x512x512.Idx) (b : Fin 8) (p q : Fin 512) (hb : (i 0).val = b.val)
    (hp : (i 1).val = p.val) (hq : (i 2).val = q.val) : gramArr0 V c i = Cert.Spec.gram (xarr0 V c) b p q := by
  obtain rfl : i = ix3 b p q := by
    funext a; apply Fin.ext
    match a with
    | ⟨0, _⟩ => exact hb
    | ⟨1, _⟩ => exact hp
    | ⟨2, _⟩ => exact hq
  rfl

/-- WHAT A POINT OF THE LAST QUARTER WRITES BACK is its block of the gram array. -/
theorem flushed0_eq (c : Dev nD) (t : Fin cfg0.N) (hf : t.val % 4 = 3) :
    (dat0 (F := Ideal) V c).flushed 1 t = ((cfg0.win 1).blk t).view.read (Elt Ideal) (gramArr0 V c) := by
  have hN : cfg0.N = 32 := N_0
  have ht := t.isLt
  obtain ⟨-, -, -, e0, e1, e2⟩ := idx_facts0 t
  show (cfg0.win 1).cut (grid0.coords t) ((dat0 (F := Ideal) V c).after 1 t) = _
  rw [after0_1]
  funext j
  have h0 : (j 0).val < 1 := (j 0).isLt
  have h1 : (j 1).val < 512 := (j 1).isLt
  have h2 : (j 2).val < 512 := (j 2).isLt
  have hb : t.val / 4 < 8 := by omega
  rw [View.read_apply]
  refine Eq.trans ?_ (cast_eq _ _).symm
  refine (k0_pay3_at (sAt0 V c t.val t.isLt) _ ⟨(j 1).val, h1⟩ ⟨(j 2).val, h2⟩ rfl rfl).trans ?_
  refine Eq.trans ?_ (gramArr0_at V c _ ⟨t.val / 4, hb⟩ ⟨(j 1).val, h1⟩ ⟨(j 2).val, h2⟩ ?_ ?_ ?_).symm
  · rw [sAt0_congr V c t.val (4 * (⟨t.val / 4, hb⟩ : Fin 8).val + 3) (by show t.val = 4 * (t.val / 4) + 3; omega) t.isLt
        (by show 4 * (t.val / 4) + 3 < cfg0.N; omega),
      sAt0_apply V c ⟨t.val / 4, hb⟩ ⟨(j 1).val, h1⟩ ⟨(j 2).val, h2⟩ 3 (by omega)]
    exact gramQ_four _ _ _ _
  · show win0_1.index t (0 : Fin 3) * 1 + 1 * (j 0).val = t.val / 4; omega
  · show win0_1.index t (1 : Fin 3) * 512 + 1 * (j 1).val = (j 1).val; omega
  · show win0_1.index t (2 : Fin 3) * 512 + 1 * (j 2).val = (j 2).val; omega

/-- An index of the output array is in a point's block iff each coordinate is in the block's range on its axis. -/
theorem mem_blk0 (t : Fin cfg0.N) (i : S8x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

/-- Entry (b, ·, ·) lies in the block that the last quarter of batch entry b writes back: the written blocks tile the
    output array. -/
theorem cover0 (i : S8x512x512.Idx) :
    ∃ t : Fin cfg0.N, (cfg0.win 1).flush t = true ∧ i ∈ ((cfg0.win 1).blk t).view.set := by
  have hN : cfg0.N = 32 := N_0
  have h0 : (i 0).val < 8 := (i 0).isLt
  have h1 : (i 1).val < 512 := (i 1).isLt
  have h2 : (i 2).val < 512 := (i 2).isLt
  obtain ⟨t, ht⟩ : ∃ t : Fin cfg0.N, t.val = 4 * (i 0).val + 3 := ⟨⟨4 * (i 0).val + 3, by omega⟩, rfl⟩
  obtain ⟨-, -, -, e0, e1, e2⟩ := idx_facts0 t
  refine ⟨t, (flush0_1 t).mpr (by omega), ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- THE OUTPUT ARRAY after the region's write-backs: at (b, p, q) the gram entry of the input array as the region
    found it. -/
theorem gram0 (c : Dev nD) (b : Fin 8) (p q : Fin 512) :
    (dat0 (F := Ideal) V c).arrAt 1 cfg0.N (ix3 b p q) = Cert.Spec.gram (V c main_v0) b p q :=
  congrFun ((dat0 (F := Ideal) V c).arrAt_eq_of_cover 1 (gramArr0 V c)
    (fun t hf => flushed0_eq V c t ((flush0_1 t).mp hf)) cover0) (ix3 b p q)

end Array

end Cert.KernelIdeal.Hand
end
-- ==== Proof.KI.Gram1.lean ====
/-
  The value of the second gram call's output array.

  The call walks 8 × 4 points: batch entry b, then a quarter k of the 16384 positions. At each point the scratch
  accumulator takes its old contents (zero at k = 0) plus a · aᵀ of the point's 512 × 4096 block a, so after the
  quarter k of batch entry b its entry (p, q) is the sum of x[b, p, n] · x[b, q, n] over the first k + 1 quarters of
  the positions n; at k = 3 that is the whole contraction, and the accumulator is copied out as block (b, ·, ·) of the
  output. The eight blocks written back tile the output array, so the array ends holding the gram matrix of every
  batch entry.
-/
import proofs.«159150_j57501022159376_1_alg».proof.Proof.KI.Region1
import proofs.«159150_j57501022159376_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

open scoped BigOperators

namespace Cert.KernelIdeal.Hand

open Cert.KernelIdeal.Gen
open Idealize.ShloMosaic Idealize.ShloMosaic.TcCoe Idealize.ShloMosaic.ValueIdx
open Idealize.SL Idealize.SL.Sem
open Idealize.ShloMosaic.Pipeline (Dat Cfg Window)

/-! ## Four quarters make the whole contraction -/

/-- The partial sums over quarters are the sum over an initial range of the positions. -/
private theorem gramQ_range (x : (⟨3, ![8, 512, 16384]⟩ : Shape).Idx → EReal) (b : Fin 8) (p q : Fin 512) (k : ℕ) :
    Cert.Spec.gramQ x b p q k
      = ∑ i ∈ Finset.range (4096 * k), (if h : i < 16384 then x (ix3 b p ⟨i, h⟩) * x (ix3 b q ⟨i, h⟩) else 0) := by
  induction k with
  | zero => simp [Cert.Spec.gramQ]
  | succ k ih =>
    rw [show 4096 * (k + 1) = 4096 * k + 4096 from by ring, Finset.sum_range_add, ← ih]
    exact congrArg (fun s => Cert.Spec.gramQ x b p q k + s)
      (Fin.sum_univ_eq_sum_range (fun i => if h : 4096 * k + i < 16384 then x (ix3 b p ⟨4096 * k + i, h⟩) * x (ix3 b q ⟨4096 * k + i, h⟩) else 0) 4096)

/-- After four quarters the partial sum is the gram entry. -/
private theorem gramQ_four (x : (⟨3, ![8, 512, 16384]⟩ : Shape).Idx → EReal) (b : Fin 8) (p q : Fin 512) :
    Cert.Spec.gramQ x b p q 4 = Cert.Spec.gram x b p q := by
  rw [gramQ_range]
  unfold Cert.Spec.gram
  rw [show 4096 * 4 = 16384 from rfl,
    ← Fin.sum_univ_eq_sum_range (fun i => if h : i < 16384 then x (ix3 b p ⟨i, h⟩) * x (ix3 b q ⟨i, h⟩) else 0) 16384]
  refine Finset.sum_congr rfl fun n _ => ?_
  rw [dif_pos n.isLt]

/-! ## The body's payloads at an index -/

/-- The product's left operand at output (r, ·) and contraction position n is read at row r … -/
private theorem dot_lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
/-- … and column n; -/
private theorem dot_lhs_col (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- its right operand at output (·, c) is read at row n … -/
private theorem dot_rhs_row (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- … and column c. -/
private theorem dot_rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- a · aᵀ into a zero accumulator, at (p, q): the sum over the columns n of a[p, n] · a[q, n]. -/
private theorem selfProduct_apply (a : FVec Ideal S512x4096 .bf16) (p q : Fin 512) :
    matmul dot_S512x4096_S4096x512_S512x512_1_0_0_1_n_n none a (transpose S4096x512 [1, 0] a transposes_S512x4096_p1_0_S4096x512)
        (constant (F := Ideal) S512x512 .f32 0x00000000#32) (ix2 p q)
      = ∑ n : Fin 4096, a (ix2 p n) * a (ix2 q n) := by
  simp only [matmul]
  rw [Ideal.matmul_constant_zero_apply, ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k := funext fun a => Fin.ext (by
    match a with
    | ⟨0, _⟩ => exact dot_lhs_row _ _
    | ⟨1, _⟩ => exact (dot_lhs_col _ _).trans hk)
  have er : dot_S512x4096_S4096x512_S512x512_1_0_0_1_n_n.rhsIdx (ix2 p q) ((contrEquiv1 dot_S512x4096_S4096x512_S512x512_1_0_0_1_n_n 4096 rfl rfl).symm k) = ix2 k q := funext fun a => Fin.ext (by
    match a with
    | ⟨0, _⟩ => exact (dot_rhs_row _ _).trans hk
    | ⟨1, _⟩ => exact dot_rhs_col _ _)
  rw [el, er, transpose_apply [1, 0] a transposes_S512x4096_p1_0_S4096x512 (ix2 k q) (ix2 q k)
    (fun b => by match b with | ⟨0, _⟩ => rfl | ⟨1, _⟩ => rfl)]

/-- The block with its unit axis dropped, at (p, n), is the block at (0, p, n). -/
private theorem dropUnit_apply (x : Vec Ideal S1x512x4096 .f32) (p : Fin 512) (n : Fin 4096) :
    shapeCast S512x4096 x shapeCasts_S1x512x4096_S512x4096 (ix2 p n) = x (ix3 0 p n) := by
  refine (shapeCast_dropUnit_apply ![512, 4096] x shapeCasts_S1x512x4096_S512x4096 (ix2 p n)).trans (congrArg x ?_)
  funext a
  match a with
  | ⟨0, _⟩ => rfl
  | ⟨1, _⟩ => rfl
  | ⟨2, _⟩ => rfl

/-- The accumulating payload at (p, q): the old entry plus the block's row p against its row q. -/
theorem k1_pay2_apply (x : Vec Ideal S1x512x4096 .f32) (s : Vec Ideal S512x512 .f32) (p q : Fin 512) :
    k1_pay2 x s (ix2 p q) = s (ix2 p q) + ∑ n : Fin 4096, x (ix3 0 p n) * x (ix3 0 q n) := by
  unfold k1_pay2
  rw [shapeCast_self, addf_apply, selfProduct_apply]
  refine congrArg (fun r => s (ix2 p q) + r) (Finset.sum_congr rfl fun n _ => ?_)
  rw [truncf_apply, truncf_apply, dropUnit_apply, dropUnit_apply]

/-- The zeroing payload is zero everywhere. -/
theorem k1_pay1_apply (p q : Fin 512) : k1_pay1 (F := Ideal) (ix2 p q) = 0 := by
  unfold k1_pay1
  rw [shapeCast_self, broadcast_apply]
  exact Ideal.ofBits_zero_f32

/-- The copied-out payload at (0, p, q) is the accumulator at (p, q). -/
theorem k1_pay3_apply (v : Vec Ideal S512x512 .f32) (p q : Fin 512) : k1_pay3 v (ix3 0 p q) = v (ix2 p q) := by
  unfold k1_pay3
  refine (shapeCast_addUnit_apply ![512, 512] v shapeCasts_S512x512_S1x512x512 (ix3 0 p q)).trans (congrArg v ?_)
  funext a
  match a with
  | ⟨0, _⟩ => rfl
  | ⟨1, _⟩ => rfl

/-! ## The input blocks, read off the array -/

section Value

variable (V : (c : Dev nD) → (b : Ref sig .tc) → Buf (Elt Ideal) ((c : Thread nD τ).loc b))

/-- The input array as the region finds it. -/
abbrev xarr1 (c : Dev nD) : (⟨3, ![8, 512, 16384]⟩ : Shape).Idx → EReal := V c main_v2

/-- The input's block at a point, as a 1 × 512 × 4096 vector. -/
abbrev xblk1 (c : Dev nD) (t : Fin cfg1.N) : Vec Ideal S1x512x4096 .f32 := iblk1 V c 0 t

/-- The block indices, decided over the grid: point t = 4·b + k takes the input's block (b, 0, k) and the output's
    block (b, 0, 0). -/
theorem idx_facts1 : ∀ t : Fin cfg1.N, win1_0.index t (0 : Fin 3) = t.val / 4 ∧ win1_0.index t (1 : Fin 3) = 0
    ∧ win1_0.index t (2 : Fin 3) = t.val % 4
    ∧ win1_1.index t (0 : Fin 3) = t.val / 4 ∧ win1_1.index t (1 : Fin 3) = 0 ∧ win1_1.index t (2 : Fin 3) = 0 :=
  (by decide +kernel : ∀ t : Fin grid1.N, _)

/-- The block of point 4·b + k at (0, p, n) is the array at (b, p, 4096·k + n). -/
theorem xblk1_apply (c : Dev nD) (t : Fin cfg1.N) (b : Fin 8) (k : ℕ) (ht : t.val = 4 * b.val + k) (hk : k < 4)
    (p : Fin 512) (n : Fin 4096) :
    xblk1 V c t (ix3 0 p n) = xarr1 V c (ix3 b p ⟨4096 * k + n.val, by have := n.isLt; omega⟩) := by
  obtain ⟨e0, e1, e2, -, -, -⟩ := idx_facts1 t
  show V c main_v2 (((cfg1.win 0).blk t).view.emb (ix3 0 p n)) = V c main_v2 (ix3 b p ⟨4096 * k + n.val, _⟩)
  refine congrArg (V c main_v2) ?_
  funext a; apply Fin.ext
  match a with
  | ⟨0, _⟩ => show win1_0.index t (0 : Fin 3) * 1 + 1 * 0 = b.val; omega
  | ⟨1, _⟩ => show win1_0.index t (1 : Fin 3) * 512 + 1 * p.val = p.val; omega
  | ⟨2, _⟩ => show win1_0.index t (2 : Fin 3) * 4096 + 1 * n.val = 4096 * k + n.val; omega

/-! ## The accumulator, quarter by quarter -/

/-- The partial sums, unrolled once. -/
private theorem gramQ_succ (x : (⟨3, ![8, 512, 16384]⟩ : Shape).Idx → EReal) (b : Fin 8) (p q : Fin 512) (k : ℕ) :
    Cert.Spec.gramQ x b p q (k + 1) = Cert.Spec.gramQ x b p q k
      + ∑ n : Fin 4096, (if h : 4096 * k + n.val < 16384 then x (ix3 b p ⟨4096 * k + n.val, h⟩) * x (ix3 b q ⟨4096 * k + n.val, h⟩) else 0) := rfl
private theorem gramQ_zero (x : (⟨3, ![8, 512, 16384]⟩ : Shape).Idx → EReal) (b : Fin 8) (p q : Fin 512) :
    Cert.Spec.gramQ x b p q 0 = 0 := rfl

/-- The accumulator's recursion does not depend on how its position is written. -/
theorem sAt1_congr (c : Dev nD) (n m : ℕ) (e : n = m) (hn : n < cfg1.N) (hm : m < cfg1.N) :
    sAt1 V c n hn = sAt1 V c m hm := by subst e; rfl

/-- After quarter k of batch entry b the accumulator holds the partial sums over the first k + 1 quarters. -/
theorem sAt1_apply (c : Dev nD) (b : Fin 8) (p q : Fin 512) (k : ℕ) :
    ∀ (hk : k < 4) (h : 4 * b.val + k < cfg1.N),
      sAt1 V c (4 * b.val + k) h (ix2 p q) = Cert.Spec.gramQ (xarr1 V c) b p q (k + 1) := by
  induction k with
  | zero =>
    intro hk h
    have hf := sAt1_first V c ⟨4 * b.val + 0, h⟩ (by show (4 * b.val + 0) % 4 = 0; omega)
    rw [show sAt1 V c (4 * b.val + 0) h = k1_pay2 (xblk1 V c ⟨4 * b.val + 0, h⟩) (k1_pay1 (F := Ideal)) from hf]
    rw [k1_pay2_apply, k1_pay1_apply, gramQ_succ, gramQ_zero]
    refine congrArg (fun r => (0 : EReal) + r) (Finset.sum_congr rfl fun n _ => ?_)
    rw [xblk1_apply V c ⟨4 * b.val + 0, h⟩ b 0 rfl hk p n, xblk1_apply V c ⟨4 * b.val + 0, h⟩ b 0 rfl hk q n,
      dif_pos (by have := n.isLt; omega)]
  | succ k ih =>
    intro hk h
    have hn := sAt1_next V c ⟨4 * b.val + (k + 1), h⟩ (by show (4 * b.val + (k + 1)) % 4 ≠ 0; omega)
    have hprev := ih (by omega) (by omega)
    rw [show sAt1 V c (4 * b.val + (k + 1)) h
        = k1_pay2 (xblk1 V c ⟨4 * b.val + (k + 1), h⟩) (sAt1 V c (4 * b.val + k) (by omega)) from
      hn.trans (congrArg (k1_pay2 (xblk1 V c ⟨4 * b.val + (k + 1), h⟩)) (sAt1_congr V c _ _ (by show 4 * b.val + (k + 1) - 1 = 4 * b.val + k; omega) _ _))]
    rw [k1_pay2_apply, hprev, gramQ_succ (xarr1 V c) b p q (k + 1)]
    refine congrArg (fun r => Cert.Spec.gramQ (xarr1 V c) b p q (k + 1) + r) (Finset.sum_congr rfl fun n _ => ?_)
    rw [xblk1_apply V c ⟨4 * b.val + (k + 1), h⟩ b (k + 1) rfl hk p n, xblk1_apply V c ⟨4 * b.val + (k + 1), h⟩ b (k + 1) rfl hk q n,
      dif_pos (by have := n.isLt; omega)]

end Value

/-! ## From the blocks to the array -/

section Array

variable (V : (c : Dev nD) → (b : Ref sig .tc) → Buf (Elt Ideal) ((c : Thread nD τ).loc b))

/-- What the output array ends holding: entry (b, p, q) is the gram entry of batch entry b's rows p and q. -/
abbrev gramArr1 (c : Dev nD) : (⟨3, ![8, 512, 512]⟩ : Shape).Idx → EReal :=
  fun j => Cert.Spec.gram (xarr1 V c) (j 0) (j 1) (j 2)

/-- The copied-out payload at an index of the 1 × 512 × 512 block whose last two coordinates are p and q. -/
theorem k1_pay3_at (v : Vec Ideal S512x512 .f32) (j : S1x512x512.Idx) (p q : Fin 512) (hp : (j 1).val = p.val)
    (hq : (j 2).val = q.val) : k1_pay3 v j = v (ix2 p q) := by
  unfold k1_pay3
  refine (shapeCast_addUnit_apply ![512, 512] v shapeCasts_S512x512_S1x512x512 j).trans (congrArg v ?_)
  funext a; apply Fin.ext
  match a with
  | ⟨0, _⟩ => exact hp
  | ⟨1, _⟩ => exact hq

/-- The gram array at an index whose coordinates are b, p and q. -/
theorem gramArr1_at (c : Dev nD) (i : S8x512x512.Idx) (b : Fin 8) (p q : Fin 512) (hb : (i 0).val = b.val)
    (hp : (i 1).val = p.val) (hq : (i 2).val = q.val) : gramArr1 V c i = Cert.Spec.gram (xarr1 V c) b p q := by
  obtain rfl : i = ix3 b p q := by
    funext a; apply Fin.ext
    match a with
    | ⟨0, _⟩ => exact hb
    | ⟨1, _⟩ => exact hp
    | ⟨2, _⟩ => exact hq
  rfl

/-- WHAT A POINT OF THE LAST QUARTER WRITES BACK is its block of the gram array. -/
theorem flushed1_eq (c : Dev nD) (t : Fin cfg1.N) (hf : t.val % 4 = 3) :
    (dat1 (F := Ideal) V c).flushed 1 t = ((cfg1.win 1).blk t).view.read (Elt Ideal) (gramArr1 V c) := by
  have hN : cfg1.N = 32 := N_1
  have ht := t.isLt
  obtain ⟨-, -, -, e0, e1, e2⟩ := idx_facts1 t
  show (cfg1.win 1).cut (grid1.coords t) ((dat1 (F := Ideal) V c).after 1 t) = _
  rw [after1_1]
  funext j
  have h0 : (j 0).val < 1 := (j 0).isLt
  have h1 : (j 1).val < 512 := (j 1).isLt
  have h2 : (j 2).val < 512 := (j 2).isLt
  have hb : t.val / 4 < 8 := by omega
  rw [View.read_apply]
  refine Eq.trans ?_ (cast_eq _ _).symm
  refine (k1_pay3_at (sAt1 V c t.val t.isLt) _ ⟨(j 1).val, h1⟩ ⟨(j 2).val, h2⟩ rfl rfl).trans ?_
  refine Eq.trans ?_ (gramArr1_at V c _ ⟨t.val / 4, hb⟩ ⟨(j 1).val, h1⟩ ⟨(j 2).val, h2⟩ ?_ ?_ ?_).symm
  · rw [sAt1_congr V c t.val (4 * (⟨t.val / 4, hb⟩ : Fin 8).val + 3) (by show t.val = 4 * (t.val / 4) + 3; omega) t.isLt
        (by show 4 * (t.val / 4) + 3 < cfg1.N; omega),
      sAt1_apply V c ⟨t.val / 4, hb⟩ ⟨(j 1).val, h1⟩ ⟨(j 2).val, h2⟩ 3 (by omega)]
    exact gramQ_four _ _ _ _
  · show win1_1.index t (0 : Fin 3) * 1 + 1 * (j 0).val = t.val / 4; omega
  · show win1_1.index t (1 : Fin 3) * 512 + 1 * (j 1).val = (j 1).val; omega
  · show win1_1.index t (2 : Fin 3) * 512 + 1 * (j 2).val = (j 2).val; omega

/-- An index of the output array is in a point's block iff each coordinate is in the block's range on its axis. -/
theorem mem_blk1 (t : Fin cfg1.N) (i : S8x512x512.Idx) :
    i ∈ ((cfg1.win 1).blk t).view.set ↔ ∀ a : Fin 3, win1_1.index t a * S1x512x512.size a ≤ (i a).val ∧ (i a).val < win1_1.index t a * S1x512x512.size a + S1x512x512.size a := by
  show i ∈ ((View.whole main_v3).slice (win1_1.rect t)).set ↔ _
  rw [View.set_slice_whole, Rect.mem_set_unit]
  exact Iff.rfl

/-- Entry (b, ·, ·) lies in the block that the last quarter of batch entry b writes back: the written blocks tile the
    output array. -/
theorem cover1 (i : S8x512x512.Idx) :
    ∃ t : Fin cfg1.N, (cfg1.win 1).flush t = true ∧ i ∈ ((cfg1.win 1).blk t).view.set := by
  have hN : cfg1.N = 32 := N_1
  have h0 : (i 0).val < 8 := (i 0).isLt
  have h1 : (i 1).val < 512 := (i 1).isLt
  have h2 : (i 2).val < 512 := (i 2).isLt
  obtain ⟨t, ht⟩ : ∃ t : Fin cfg1.N, t.val = 4 * (i 0).val + 3 := ⟨⟨4 * (i 0).val + 3, by omega⟩, rfl⟩
  obtain ⟨-, -, -, e0, e1, e2⟩ := idx_facts1 t
  refine ⟨t, (flush1_1 t).mpr (by omega), ?_⟩
  rw [mem_blk1]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 512 ≤ (i 1).val ∧ (i 1).val < win1_1.index t (1 : Fin 3) * 512 + 512; omega
  | ⟨2, _⟩ => show win1_1.index t (2 : Fin 3) * 512 ≤ (i 2).val ∧ (i 2).val < win1_1.index t (2 : Fin 3) * 512 + 512; omega

/-- THE OUTPUT ARRAY after the region's write-backs: at (b, p, q) the gram entry of the input array as the region
    found it. -/
theorem gram1 (c : Dev nD) (b : Fin 8) (p q : Fin 512) :
    (dat1 (F := Ideal) V c).arrAt 1 cfg1.N (ix3 b p q) = Cert.Spec.gram (V c main_v2) b p q :=
  congrFun ((dat1 (F := Ideal) V c).arrAt_eq_of_cover 1 (gramArr1 V c)
    (fun t hf => flushed1_eq V c t ((flush1_1 t).mp hf)) cover1) (ix3 b p q)

end Array

end Cert.KernelIdeal.Hand
end
-- ==== Proof.KI.Loss.lean ====
/-
  What both programs do with the two gram matrices once they have them, as ONE function: from the grams `g0`, `g1`
  and the squared channel norms `d0`, `d1` (their diagonals), the norms n = sqrt d, each gram divided entrywise by
  the outer product n nᵀ, and the mean of the squared difference of the two quotients (the sum over all 8·512·512
  entries divided by 2097152, times one). And the diagonal itself as the kernel's program takes it: a gather at the
  start indices (c, c).
-/
import proofs.«159150_j57501022159376_1_alg».proof.Proof.Gen.KernelIdeal.Launch

noncomputable section

namespace Cert.KernelIdeal.Hand

open Cert.KernelIdeal.Gen
open Idealize.ShloMosaic Idealize.ShloMosaic.TcCoe Idealize.SL.Sem

variable {F : FTy → Type} [FloatOps F]

/-- The start indices of the diagonal, as @main computes them: an iota, wrapped if negative (it never is), paired
    with itself. Row c is (c, c). -/
def diagIdx : (⟨S512x2, .i32⟩ : BufTy).Contents (Elt F) :=
  let i0 : (⟨S512, .i32⟩ : BufTy).Contents (Elt F) := iotaInDim S512 32 0
  let i1 : (⟨S512, .i32⟩ : BufTy).Contents (Elt F) := iotaInDim S512 32 0
  let z0 : (⟨S512, .i32⟩ : BufTy).Contents (Elt F) := broadcastInDim S512 ![] bcast_S_S512 (constantI S_ 32 0#32)
  let w0 : (⟨S512, .i32⟩ : BufTy).Contents (Elt F) := broadcastInDim S512 ![] bcast_S_S512 (constantI S_ 32 512#32)
  let a0 : (⟨S512, .i32⟩ : BufTy).Contents (Elt F) := select (cmpi .slt i0 z0) (addi i0 w0) i0
  let z1 : (⟨S512, .i32⟩ : BufTy).Contents (Elt F) := broadcastInDim S512 ![] bcast_S_S512 (constantI S_ 32 0#32)
  let w1 : (⟨S512, .i32⟩ : BufTy).Contents (Elt F) := broadcastInDim S512 ![] bcast_S_S512 (constantI S_ 32 512#32)
  let a1 : (⟨S512, .i32⟩ : BufTy).Contents (Elt F) := select (cmpi .slt i1 z1) (addi i1 w1) i1
  concatenate S512x2 1 [⟨S512x1, broadcastInDim S512x1 ![0] bcast_S512_S512x1_0 a0⟩, ⟨S512x1, broadcastInDim S512x1 ![0] bcast_S512_S512x1_0 a1⟩] concatenates_S512x1_S512x1_S512x2_d1

/-- The diagonal of a batch of 512 × 512 matrices, as @main takes it. -/
def diagOf (g : (⟨S8x512x512, .f32⟩ : BufTy).Contents (Elt F)) : (⟨S8x512, .f32⟩ : BufTy).Contents (Elt F) :=
  Host.gather gather_S8x512x512_S512x2_S8x512_0_12_n_n_12_1_811 g (diagIdx (F := F))

/-- The normalised-gram loss of two grams `g0`, `g1` with squared channel norms `d0`, `d1`. -/
def loss (g0 g1 : (⟨S8x512x512, .f32⟩ : BufTy).Contents (Elt F)) (d0 d1 : (⟨S8x512, .f32⟩ : BufTy).Contents (Elt F)) :
    (⟨S_, .f32⟩ : BufTy).Contents (Elt F) :=
  let n0 : (⟨S8x512, .f32⟩ : BufTy).Contents (Elt F) := Host.sqrt d0
  let n1 : (⟨S8x512, .f32⟩ : BufTy).Contents (Elt F) := Host.sqrt d1
  let c0 : (⟨S8x512x512, .f32⟩ : BufTy).Contents (Elt F) :=
    broadcastInDim S8x512x512 ![0, 1, 2] bcast_S8x512x1_S8x512x512_0_1_2 (broadcastInDim S8x512x1 ![0, 1] bcast_S8x512_S8x512x1_0_1 n0)
  let r0 : (⟨S8x512x512, .f32⟩ : BufTy).Contents (Elt F) :=
    broadcastInDim S8x512x512 ![0, 1, 2] bcast_S8x1x512_S8x512x512_0_1_2 (broadcastInDim S8x1x512 ![0, 2] bcast_S8x512_S8x1x512_0_2 n0)
  let c1 : (⟨S8x512x512, .f32⟩ : BufTy).Contents (Elt F) :=
    broadcastInDim S8x512x512 ![0, 1, 2] bcast_S8x512x1_S8x512x512_0_1_2 (broadcastInDim S8x512x1 ![0, 1] bcast_S8x512_S8x512x1_0_1 n1)
  let r1 : (⟨S8x512x512, .f32⟩ : BufTy).Contents (Elt F) :=
    broadcastInDim S8x512x512 ![0, 1, 2] bcast_S8x1x512_S8x512x512_0_1_2 (broadcastInDim S8x1x512 ![0, 2] bcast_S8x512_S8x1x512_0_2 n1)
  let q0 : (⟨S8x512x512, .f32⟩ : BufTy).Contents (Elt F) := Host.divf g0 (mulf c0 r0)
  let q1 : (⟨S8x512x512, .f32⟩ : BufTy).Contents (Elt F) := Host.divf g1 (mulf c1 r1)
  let e : (⟨S8x512x512, .f32⟩ : BufTy).Contents (Elt F) := subf q0 q1
  let s : (⟨S_, .f32⟩ : BufTy).Contents (Elt F) :=
    Host.reduceAdd (mulf e e) (constant S_ .f32 0x00000000#32) reducesTo_S8x512x512_S_d0_1_2 h_S_
  mulf (Host.divf s (constant S_ .f32 0x4A000000#32)) (constant S_ .f32 0x3F800000#32)

end Cert.KernelIdeal.Hand

end
-- ==== Proof.KI.Tail.lean ====
/-
  The end of the kernel's program, after both gram matrices are in their arrays, as ONE function of the two grams:
  the diagonal of each (a gather at the start indices (c, c)), its square root, and the normalised-gram loss.
  And the diagonal read at an index: the gather only moves elements, so entry (b, c) of the diagonal is entry
  (b, c, c) of the gram. The start indices are an iota wrapped where negative — never, a row number being below
  512 — paired with itself, so row c of them is (c, c); read signed and clamped into [0, 511] both stay c.
-/
import proofs.«159150_j57501022159376_1_alg».proof.Proof.KI.Loss
import Idealize.ShloMosaic.Lib.StableHlo.Run
import Idealize.ShloMosaic.Lib.ValueIdx
import Idealize.ShloMosaic.Lib.Pipeline.Value
import Idealize.ShloMosaic.Lib.StableHlo.Predicate

noncomputable section

namespace Cert.KernelIdeal.Hand

open Cert.KernelIdeal.Gen
open Idealize.ShloMosaic Idealize.ShloMosaic.TcCoe Idealize.SL.Sem
open Idealize.ShloMosaic.ValueIdx

variable {F : FTy → Type} [FloatOps F]

/-! ## The start indices at a row -/

/-- A row number below 512 is not negative as a signed 32-bit word. -/
theorem row_not_neg (c : Fin 512) : IntOp.cmpi .slt (BitVec.ofNat 32 c.val) 0#32 = 0#1 := by
  have hc := c.isLt
  refine eq_zero_of_ne_one fun h1 => ?_
  have ha : (BitVec.ofNat 32 c.val).toNat < 2 ^ 31 := by rw [BitVec.toNat_ofNat]; omega
  have hb : (0#32 : BitVec 32).toNat < 2 ^ 31 := by decide
  have := (StableHlo.Predicate.slt_iff_toNat ha hb).mp h1
  simp at this

/-- The wrapped iota at row c is c. -/
theorem wrapped_apply (c : Fin 512) :
    (select (cmpi .slt (iotaInDim S512 32 0) (broadcastInDim S512 ![] bcast_S_S512 (constantI S_ 32 0#32)))
      (addi (iotaInDim S512 32 0) (broadcastInDim S512 ![] bcast_S_S512 (constantI S_ 32 512#32)))
      (iotaInDim S512 32 0) : IVec S512 32) (ix1 c) = BitVec.ofNat 32 c.val := by
  rw [select_apply]
  show Scalar.select (IntOp.cmpi .slt (BitVec.ofNat 32 c.val) 0#32) _ (BitVec.ofNat 32 c.val) = _
  rw [row_not_neg, select_zero]

/-- Row c of the start indices, first component. -/
theorem diagIdx_left (c : Fin 512) : (diagIdx (F := F) : IVec S512x2 32) (ix2 c (0 : Fin 2)) = BitVec.ofNat 32 c.val := by
  unfold diagIdx
  dsimp only
  refine (concatenate_pair_apply_left (t := S512x2) (s₁ := S512x1) (s₂ := S512x1) (1 : Fin 2) _ _
    concatenates_S512x1_S512x1_S512x2_d1 (ix2 c (0 : Fin 2)) rfl
    (ix2 c (0 : Fin 1)) (fun b => by match b with | ⟨0, _⟩ => rfl | ⟨1, _⟩ => rfl)).trans ?_
  refine (broadcastInDim_apply (s := S512) (t := S512x1) _ bcast_S512_S512x1_0 _ (ix2 c (0 : Fin 1)) (ix1 c)
    (fun a => by obtain rfl : a = 0 := Subsingleton.elim _ _; rfl)).trans ?_
  exact wrapped_apply c

/-- Row c of the start indices, second component. -/
theorem diagIdx_right (c : Fin 512) : (diagIdx (F := F) : IVec S512x2 32) (ix2 c (1 : Fin 2)) = BitVec.ofNat 32 c.val := by
  unfold diagIdx
  dsimp only
  refine (concatenate_pair_apply_right (t := S512x2) (s₁ := S512x1) (s₂ := S512x1) (1 : Fin 2) _ _
    concatenates_S512x1_S512x1_S512x2_d1 (ix2 c (1 : Fin 2)) rfl rfl
    (ix2 c (0 : Fin 1)) (fun b hb => by match b with | ⟨0, _⟩ => rfl | ⟨1, _⟩ => exact absurd rfl hb) rfl).trans ?_
  refine (broadcastInDim_apply (s := S512) (t := S512x1) _ bcast_S512_S512x1_0 _ (ix2 c (0 : Fin 1)) (ix1 c)
    (fun a => by obtain rfl : a = 0 := Subsingleton.elim _ _; rfl)).trans ?_
  exact wrapped_apply c

/-- A row number below 512, read signed and clamped into [0, 511], is itself. -/
theorem clamp_row (c : Fin 512) : min (BitVec.ofNat 32 c.val).toInt.toNat (512 - 1) = c.val := by
  have hc := c.isLt
  rw [StableHlo.Predicate.toInt_ofNat_small c.val (by omega), Int.toNat_natCast]
  omega

/-! ## The operand index of the diagonal gather, axis by axis -/

/-- Axis 0 is the one offset axis: no start, the result's batch coordinate. -/
theorem opIdx_0 (b : Fin 8) (c : Fin 512) (idx : IVec S512x2 32) :
    gather_S8x512x512_S512x2_S8x512_0_12_n_n_12_1_811.start (ix2 b c) idx (0 : Fin 3) + gather_S8x512x512_S512x2_S8x512_0_12_n_n_12_1_811.batchCoord (ix2 b c) (0 : Fin 3) + gather_S8x512x512_S512x2_S8x512_0_12_n_n_12_1_811.offCoord (ix2 b c) (0 : Fin 3) = b.val := by
  rw [GatherDims.batchCoord_eq_zero _ _ _ List.not_mem_nil, Nat.add_zero]
  unfold GatherDims.start
  rw [dif_neg (by decide), Nat.zero_add]
  rfl

/-- The start-index entries row c of the result reads: (c, 0) for axis 1 and (c, 1) for axis 2. -/
theorem siIdx_1 (b : Fin 8) (c : Fin 512) (h) :
    gather_S8x512x512_S512x2_S8x512_0_12_n_n_12_1_811.siIdx (ix2 b c) ⟨List.idxOf (1 : Fin 3) gather_S8x512x512_S512x2_S8x512_0_12_n_n_12_1_811.startIndexMap, h⟩ = ix2 c (0 : Fin 2) := by
  funext b'; refine Fin.ext ?_
  match b' with
  | ⟨0, _⟩ => rfl
  | ⟨1, _⟩ => rfl

theorem siIdx_2 (b : Fin 8) (c : Fin 512) (h) :
    gather_S8x512x512_S512x2_S8x512_0_12_n_n_12_1_811.siIdx (ix2 b c) ⟨List.idxOf (2 : Fin 3) gather_S8x512x512_S512x2_S8x512_0_12_n_n_12_1_811.startIndexMap, h⟩ = ix2 c (1 : Fin 2) := by
  funext b'; refine Fin.ext ?_
  match b' with
  | ⟨0, _⟩ => rfl
  | ⟨1, _⟩ => rfl

/-- Axis 1 is collapsed: the clamped first component of row c of the start indices. -/
theorem opIdx_1 (b : Fin 8) (c : Fin 512) (idx : IVec S512x2 32) :
    gather_S8x512x512_S512x2_S8x512_0_12_n_n_12_1_811.start (ix2 b c) idx (1 : Fin 3) + gather_S8x512x512_S512x2_S8x512_0_12_n_n_12_1_811.batchCoord (ix2 b c) (1 : Fin 3) + gather_S8x512x512_S512x2_S8x512_0_12_n_n_12_1_811.offCoord (ix2 b c) (1 : Fin 3)
      = min (idx (ix2 c (0 : Fin 2))).toInt.toNat (512 - 1) := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide), siIdx_1]
  rfl

/-- Axis 2 is collapsed: the clamped second component of row c of the start indices. -/
theorem opIdx_2 (b : Fin 8) (c : Fin 512) (idx : IVec S512x2 32) :
    gather_S8x512x512_S512x2_S8x512_0_12_n_n_12_1_811.start (ix2 b c) idx (2 : Fin 3) + gather_S8x512x512_S512x2_S8x512_0_12_n_n_12_1_811.batchCoord (ix2 b c) (2 : Fin 3) + gather_S8x512x512_S512x2_S8x512_0_12_n_n_12_1_811.offCoord (ix2 b c) (2 : Fin 3)
      = min (idx (ix2 c (1 : Fin 2))).toInt.toNat (512 - 1) := by
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide), siIdx_2]
  rfl

/-! ## The diagonal read at an index -/

/-- The gather at (b, c) reads the operand at (b, c, c). -/
theorem diagOf_apply (g : (⟨S8x512x512, .f32⟩ : BufTy).Contents (Elt F)) (b : Fin 8) (c : Fin 512) :
    diagOf g (ix2 b c) = g (ix3 b c c) := by
  unfold diagOf Host.gather
  congr 1
  funext a
  refine Fin.ext ?_
  match a with
  | ⟨0, _⟩ => exact opIdx_0 b c _
  | ⟨1, _⟩ => exact (opIdx_1 b c _).trans ((congrArg (fun w : BitVec 32 => min w.toInt.toNat (512 - 1)) (diagIdx_left c)).trans (clamp_row c))
  | ⟨2, _⟩ => exact (opIdx_2 b c _).trans ((congrArg (fun w : BitVec 32 => min w.toInt.toNat (512 - 1)) (diagIdx_right c)).trans (clamp_row c))

/-! ## The host tail, stretch by stretch

Each stretch of host operations is read at the buffers the next stretches use: the buffer it computes, as the
function of the buffers it reads, and the grams and earlier results, which it leaves alone. -/

section Tail

set_option maxHeartbeats 4000000 in
/-- The first diagonal stretch writes the diagonal of the first gram. -/
theorem after2_v4 (W : Valuation τ sig (Elt F)) :
    (StableHlo.after hostOps2 W (Proc.devRef .tc main_v4) : (⟨S8x512, .f32⟩ : BufTy).Contents (Elt F))
      = diagOf (W (Proc.devRef .tc main_v1)) := by
  after_results
  simp only [StableHlo.TRef.ofBuf, StableHlo.TRef.toBuf, cast_eq]
  rfl

theorem after2_v1 (W : Valuation τ sig (Elt F)) :
    StableHlo.after hostOps2 W (Proc.devRef .tc main_v1) = W (Proc.devRef .tc main_v1) := by
  after_results

theorem after2_v3 (W : Valuation τ sig (Elt F)) :
    StableHlo.after hostOps2 W (Proc.devRef .tc main_v3) = W (Proc.devRef .tc main_v3) := by
  after_results

/-- The square root of the first diagonal. -/
theorem after21_v5 (W : Valuation τ sig (Elt F)) :
    (StableHlo.after hostOps2_1 W (Proc.devRef .tc main_v5) : (⟨S8x512, .f32⟩ : BufTy).Contents (Elt F))
      = Host.sqrt (W (Proc.devRef .tc main_v4)) := by
  after_results

theorem after21_v1 (W : Valuation τ sig (Elt F)) :
    StableHlo.after hostOps2_1 W (Proc.devRef .tc main_v1) = W (Proc.devRef .tc main_v1) := by
  after_results

theorem after21_v3 (W : Valuation τ sig (Elt F)) :
    StableHlo.after hostOps2_1 W (Proc.devRef .tc main_v3) = W (Proc.devRef .tc main_v3) := by
  after_results

set_option maxHeartbeats 4000000 in
/-- The second diagonal stretch writes the diagonal of the second gram. -/
theorem after22_v6 (W : Valuation τ sig (Elt F)) :
    (StableHlo.after hostOps2_2 W (Proc.devRef .tc main_v6) : (⟨S8x512, .f32⟩ : BufTy).Contents (Elt F))
      = diagOf (W (Proc.devRef .tc main_v3)) := by
  after_results
  simp only [StableHlo.TRef.ofBuf, StableHlo.TRef.toBuf, cast_eq]
  rfl

theorem after22_v1 (W : Valuation τ sig (Elt F)) :
    StableHlo.after hostOps2_2 W (Proc.devRef .tc main_v1) = W (Proc.devRef .tc main_v1) := by
  after_results

theorem after22_v3 (W : Valuation τ sig (Elt F)) :
    StableHlo.after hostOps2_2 W (Proc.devRef .tc main_v3) = W (Proc.devRef .tc main_v3) := by
  after_results

theorem after22_v5 (W : Valuation τ sig (Elt F)) :
    StableHlo.after hostOps2_2 W (Proc.devRef .tc main_v5) = W (Proc.devRef .tc main_v5) := by
  after_results

set_option maxHeartbeats 4000000 in
/-- The last stretch: from the two grams, the first norm vector and the second diagonal, the loss. -/
theorem after23_v24 (W : Valuation τ sig (Elt F)) (d0 : (⟨S8x512, .f32⟩ : BufTy).Contents (Elt F))
    (h5 : (W (Proc.devRef .tc main_v5) : (⟨S8x512, .f32⟩ : BufTy).Contents (Elt F)) = Host.sqrt d0) :
    (StableHlo.after hostOps2_3 W (Proc.devRef .tc main_v24) : (⟨S_, .f32⟩ : BufTy).Contents (Elt F))
      = loss (W (Proc.devRef .tc main_v1)) (W (Proc.devRef .tc main_v3)) d0 (W (Proc.devRef .tc main_v6)) := by
  after_results
  rw [h5]
  rfl

/-- THE HOST TAIL: the loss of the two grams and their diagonals. -/
theorem tail_eq (X : Valuation τ sig (Elt F)) :
    (StableHlo.after hostOps2_3 (StableHlo.after hostOps2_2 (StableHlo.after hostOps2_1 (StableHlo.after hostOps2 X)))
        (Proc.devRef .tc main_v24) : (⟨S_, .f32⟩ : BufTy).Contents (Elt F))
      = loss (X (Proc.devRef .tc main_v1)) (X (Proc.devRef .tc main_v3)) (diagOf (X (Proc.devRef .tc main_v1)))
          (diagOf (X (Proc.devRef .tc main_v3))) := by
  refine (after23_v24 _ (diagOf (X (Proc.devRef .tc main_v1))) ?_).trans ?_
  · rw [after22_v5, after21_v5, after2_v4]
  · rw [after22_v1, after21_v1, after2_v1, after22_v3, after21_v3, after2_v3, after22_v6, after21_v3, after2_v3]

end Tail

end Cert.KernelIdeal.Hand

end
-- ==== Proof.RefValue.lean ====
/-
  The reference side. Its gram matrix (one contraction over all 16384 positions) and its squared channel norms (the sum
  of squares along the positions, from zero) are the gram function and its diagonal; and its result is the loss function
  of those four arrays, the same function the kernel's program applies to its own.
-/
import proofs.«159150_j57501022159376_1_alg».proof.Proof.Gen.ReferenceIdeal.Read
import proofs.«159150_j57501022159376_1_alg».proof.Proof.Spec
import proofs.«159150_j57501022159376_1_alg».proof.Proof.KI.Loss

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's first gram at (b, p, q) is the gram entry of the re-laid first argument. -/
theorem gram_v1 (x0 : (⟨S8x512x128x128, .f32⟩ : BufTy).Contents (Elt Ideal)) (b : Fin 8) (p q : Fin 512) :
    val_main_v1 (F := Ideal) x0 (ix3 b p q) = Cert.Spec.gram (val_main_v0 (F := Ideal) x0) b p q := by
  rw [val_main_v1_apply]; unfold Cert.Spec.gram
  refine Finset.sum_congr rfl fun k _ => ?_
  have el : lidx_main_v1 (ix3 b p q) k = ix3 b p k :=
    funext fun a => Fin.ext (by match a with | ⟨0, _⟩ => rfl | ⟨1, _⟩ => rfl | ⟨2, _⟩ => rfl)
  have er : ridx_main_v1 (ix3 b p q) k = ix3 b q k :=
    funext fun a => Fin.ext (by match a with | ⟨0, _⟩ => rfl | ⟨1, _⟩ => rfl | ⟨2, _⟩ => rfl)
  rw [el, er]

/-- The second gram, of the second argument. -/
theorem gram_v12 (x1 : (⟨S8x512x128x128, .f32⟩ : BufTy).Contents (Elt Ideal)) (b : Fin 8) (p q : Fin 512) :
    val_main_v12 (F := Ideal) x1 (ix3 b p q) = Cert.Spec.gram (val_main_v11 (F := Ideal) x1) b p q := by
  rw [val_main_v12_apply]; unfold Cert.Spec.gram
  refine Finset.sum_congr rfl fun k _ => ?_
  have el : lidx_main_v12 (ix3 b p q) k = ix3 b p k :=
    funext fun a => Fin.ext (by match a with | ⟨0, _⟩ => rfl | ⟨1, _⟩ => rfl | ⟨2, _⟩ => rfl)
  have er : ridx_main_v12 (ix3 b p q) k = ix3 b q k :=
    funext fun a => Fin.ext (by match a with | ⟨0, _⟩ => rfl | ⟨1, _⟩ => rfl | ⟨2, _⟩ => rfl)
  rw [el, er]

/-- The squared norm of channel (b, c): zero plus the sum of the squares is the gram's diagonal entry. -/
theorem sq_v3 (x0 : (⟨S8x512x128x128, .f32⟩ : BufTy).Contents (Elt Ideal)) (b : Fin 8) (c : Fin 512) :
    val_main_v3 (F := Ideal) x0 (ix2 b c) = Cert.Spec.gram (val_main_v0 (F := Ideal) x0) b c c := by
  rw [val_main_v3_apply]; unfold Cert.Spec.gram
  rw [val_main_cst_apply, show (FloatOps.ofBits .f32 0x00000000#32 : Ideal .f32) = 0 from Ideal.ofBits_zero_f32, zero_add]
  refine Finset.sum_congr rfl fun k _ => ?_
  have e : idx_main_v3 (ix2 b c) k = ix3 b c k :=
    funext fun a => Fin.ext (by match a with | ⟨0, _⟩ => rfl | ⟨1, _⟩ => rfl | ⟨2, _⟩ => rfl)
  rw [val_main_v2_apply, e]; rfl

theorem sq_v14 (x1 : (⟨S8x512x128x128, .f32⟩ : BufTy).Contents (Elt Ideal)) (b : Fin 8) (c : Fin 512) :
    val_main_v14 (F := Ideal) x1 (ix2 b c) = Cert.Spec.gram (val_main_v11 (F := Ideal) x1) b c c := by
  rw [val_main_v14_apply]; unfold Cert.Spec.gram
  rw [val_main_cst_0_apply, show (FloatOps.ofBits .f32 0x00000000#32 : Ideal .f32) = 0 from Ideal.ofBits_zero_f32, zero_add]
  refine Finset.sum_congr rfl fun k _ => ?_
  have e : idx_main_v14 (ix2 b c) k = ix3 b c k :=
    funext fun a => Fin.ext (by match a with | ⟨0, _⟩ => rfl | ⟨1, _⟩ => rfl | ⟨2, _⟩ => rfl)
  rw [val_main_v13_apply, e]; rfl

/-- The reference's result is the loss of its two grams and its two vectors of squared norms. -/
theorem result_eq_loss (x0 x1 : (⟨S8x512x128x128, .f32⟩ : BufTy).Contents (Elt Ideal)) :
    val_main_v26 (F := Ideal) x0 x1
      = Cert.KernelIdeal.Hand.loss (F := Ideal) (val_main_v1 (F := Ideal) x0) (val_main_v12 (F := Ideal) x1)
          (val_main_v3 (F := Ideal) x0) (val_main_v14 (F := Ideal) x1) := rfl

end Cert.ReferenceIdeal.RefValue

end
-- ==== Proof.KI.Bridge.lean ====
/-
  The kernel's program and the reference compute the same number. Each pallas_call leaves the gram matrix of its
  re-laid argument — four partial sums over quarters of the positions are one sum over all of them —, which is the
  reference's contraction; the diagonal the kernel's program gathers from it is the reference's sum of squares; and from
  the two grams and the two diagonals on, both programs apply one and the same function.
-/
import proofs.«159150_j57501022159376_1_alg».proof.Proof.KI.Run
import proofs.«159150_j57501022159376_1_alg».proof.Proof.KI.Gram0
import proofs.«159150_j57501022159376_1_alg».proof.Proof.KI.Gram1
import proofs.«159150_j57501022159376_1_alg».proof.Proof.KI.Tail
import proofs.«159150_j57501022159376_1_alg».proof.Proof.RefValue

noncomputable section

namespace Cert.KernelIdeal.Hand

open Cert.KernelIdeal.Gen
open Idealize.ShloMosaic Idealize.ShloMosaic.TcCoe Idealize.SL.Sem Idealize.ShloMosaic.ValueIdx
open Cert.ReferenceIdeal.Read (val_main_v0 val_main_v1 val_main_v3 val_main_v11 val_main_v12 val_main_v14 val_main_v26)

variable (m : (ℓ : Loc nD τ sig) → Buf (Elt Ideal) ℓ) (ρ : Dev nD → PrngReg)

/-- What the first call leaves in its output array is the reference's first gram. -/
theorem gram_first (c : Dev nD) :
    W4 m ρ c (Proc.devRef .tc main_v1) = val_main_v1 (F := Ideal) (m ((c : Thread nD τ).loc main_arg0)) := by
  rw [W4_main_v1]
  funext j
  obtain ⟨b, p, q, rfl⟩ : ∃ (b : Fin 8) (p q : Fin 512), j = ix3 b p q := ⟨j 0, j 1, j 2, eq_ix3 j⟩
  rw [gram0, Cert.ReferenceIdeal.RefValue.gram_v1, V1_main_v0]; rfl

/-- What the second call leaves is the reference's second gram. -/
theorem gram_second (c : Dev nD) :
    W4 m ρ c (Proc.devRef .tc main_v3) = val_main_v12 (F := Ideal) (m ((c : Thread nD τ).loc main_arg1)) := by
  rw [W4_main_v3]
  funext j
  obtain ⟨b, p, q, rfl⟩ : ∃ (b : Fin 8) (p q : Fin 512), j = ix3 b p q := ⟨j 0, j 1, j 2, eq_ix3 j⟩
  rw [gram1, Cert.ReferenceIdeal.RefValue.gram_v12, V3_main_v2]; rfl

/-- The gathered diagonal of the reference's gram is its vector of squared norms. -/
theorem diag_first (x0 : (⟨S8x512x128x128, .f32⟩ : BufTy).Contents (Elt Ideal)) :
    diagOf (F := Ideal) (val_main_v1 (F := Ideal) x0) = val_main_v3 (F := Ideal) x0 := by
  funext j
  obtain ⟨b, c, rfl⟩ : ∃ (b : Fin 8) (c : Fin 512), j = ix2 b c := ⟨j 0, j 1, eq_ix2 j⟩
  rw [diagOf_apply, Cert.ReferenceIdeal.RefValue.gram_v1, Cert.ReferenceIdeal.RefValue.sq_v3]

theorem diag_second (x1 : (⟨S8x512x128x128, .f32⟩ : BufTy).Contents (Elt Ideal)) :
    diagOf (F := Ideal) (val_main_v12 (F := Ideal) x1) = val_main_v14 (F := Ideal) x1 := by
  funext j
  obtain ⟨b, c, rfl⟩ : ∃ (b : Fin 8) (c : Fin 512), j = ix2 b c := ⟨j 0, j 1, eq_ix2 j⟩
  rw [diagOf_apply, Cert.ReferenceIdeal.RefValue.gram_v12, Cert.ReferenceIdeal.RefValue.sq_v14]

/-- The kernel's program ends with its result at the reference's result term of the same arguments. -/
theorem result_eq (c : Dev nD) :
    W8 m ρ c (Proc.devRef .tc main_v24)
      = val_main_v26 (F := Ideal) (m ((c : Thread nD τ).loc main_arg0)) (m ((c : Thread nD τ).loc main_arg1)) := by
  rw [W8_eq, tail_eq (W4 m ρ c), gram_first, gram_second, diag_first, diag_second,
    Cert.ReferenceIdeal.RefValue.result_eq_loss]

end Cert.KernelIdeal.Hand

end
-- ==== Proof.lean ====
/-
  The certificate. Both gram calls of the kernel's program are regions of one pipeline shape: a scratch accumulator
  zeroed at the first quarter of each batch entry, added into at every quarter and copied out at the last; their frames
  are the run of @main as eight segments (Proof/K/Run.lean at the word-level instance, Proof/KI/Run.lean at the ideal
  one), each region entered with the plain region invariant and left with it. The reference's frame is its run with the
  result dropped. At the ideal instance the first program's result is the reference's result term of the same arguments
  (Proof/KI/Bridge.lean): four partial sums over quarters of the positions are the one contraction, the gathered diagonal
  is the sum of squares, and the rest is one function applied by both.
-/
import proofs.«159150_j57501022159376_1_alg».proof.Defs
import proofs.«159150_j57501022159376_1_alg».proof.Proof.Gen.Kernel
import proofs.«159150_j57501022159376_1_alg».proof.Proof.Gen.KernelIdeal
import proofs.«159150_j57501022159376_1_alg».proof.Proof.Gen.ReferenceIdeal
import proofs.«159150_j57501022159376_1_alg».proof.Proof.Gen.Pre_finite_inputs
import proofs.«159150_j57501022159376_1_alg».proof.Proof.Gen.ReferenceIdeal.Run
import proofs.«159150_j57501022159376_1_alg».proof.Proof.Gen.ReferenceIdeal.Read
import proofs.«159150_j57501022159376_1_alg».proof.Proof.K.Run
import proofs.«159150_j57501022159376_1_alg».proof.Proof.KI.Run
import proofs.«159150_j57501022159376_1_alg».proof.Proof.KI.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both programs end with the same number: the kernel's program at what its run leaves in its result buffer, which is
    the reference's result term of the arguments the two memories agree on. -/
theorem algebraic : Cert.algebraic_KernelIdeal_ReferenceIdeal := by
  intro m ρ m' ρ' _ hagree
  refine ⟨fun c => Cert.KernelIdeal.Hand.W8 m ρ c (Proc.devRef .tc Cert.KernelIdeal.main_v24), ?_, ?_⟩
  · exact (θ_run Cert.KernelIdeal.defs _ _).mono (fun r h c =>
      ⟨h c _ (Cert.KernelIdeal.Hand.mem_uc Cert.KernelIdeal.main_v24 (by decide)),
       (h c _ (Cert.KernelIdeal.Hand.mem_uc Cert.KernelIdeal.main_arg0 (by decide))).trans (Cert.KernelIdeal.Hand.W8_main_arg0 m ρ c),
       (h c _ (Cert.KernelIdeal.Hand.mem_uc Cert.KernelIdeal.main_arg1 (by decide))).trans (Cert.KernelIdeal.Hand.W8_main_arg1 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2]
    exact (Cert.KernelIdeal.Hand.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
